-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x512 : Shape := ⟨3, ![64, 4096, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S64x4096x512 : S_.BroadcastsInDim S64x4096x512 (![] : Fin 0 → Fin S64x4096x512.rank)
  reducesTo_S64x4096x512_S_d0_1_2 : S64x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S64x4096x512 .f32) (main_arg1 : FVec F S512x256 .f32) (main_arg2 : FVec F S256 .f32) (main_arg3 : FVec F S256x1 .f32) (main_arg4 : FVec F S1 .f32) : IVec S_ 1 :=
  let main_v0 : FVec F S64x4096x512 .f32 := Host.absf main_arg0
  let main_cst : FVec F S_ .f32 := constant S_ .f32 0x7F800000#32
  let main_v1 : FVec F S64x4096x512 .f32 := broadcastInDim S64x4096x512 ![] bcast_S_S64x4096x512 main_cst
  let main_v2 : IVec S64x4096x512 1 := cmpf .olt main_v0 main_v1
  let main_c : IVec S_ 1 := constantI S_ 1 1#1
  let main_v3 : IVec S_ 1 := (fun x v => Host.reduce IntOp.andi x v reducesTo_S64x4096x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S64x4096x512 : Shape := ⟨3, ![64, 4096, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S64x4096 : Shape := ⟨2, ![64, 4096]⟩
abbrev S64x512 : Shape := ⟨2, ![64, 512]⟩
abbrev S8x512x512 : Shape := ⟨3, ![8, 512, 512]⟩
abbrev S8x512 : Shape := ⟨2, ![8, 512]⟩
abbrev S8x1 : Shape := ⟨2, ![8, 1]⟩
abbrev S4096x512 : Shape := ⟨2, ![4096, 512]⟩
abbrev S4096x256 : Shape := ⟨2, ![4096, 256]⟩
abbrev S4096 : Shape := ⟨1, ![4096]⟩
abbrev S8 : Shape := ⟨1, ![8]⟩
abbrev S8x1x512 : Shape := ⟨3, ![8, 1, 512]⟩
abbrev S_ : Shape := ⟨0, ![]⟩
abbrev S64 : Shape := ⟨1, ![64]⟩
abbrev S64x1 : Shape := ⟨2, ![64, 1]⟩
abbrev S64x4096x1 : Shape := ⟨3, ![64, 4096, 1]⟩

abbrev nBuf : Space → Nat
  | .hbm => 23
  | .vmem => 13
  | .smem => 0
  | _ => 0

abbrev bufTy : (tb : Table) → Fin (tcTables nBuf tb) → BufTy
  | .hbm, ⟨0, _⟩ => ⟨S64x4096x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S1x256, .f32⟩
  | .hbm, ⟨6, _⟩ => ⟨S64x4096, .f32⟩
  | .hbm, ⟨7, _⟩ => ⟨S64x512, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x4096, .f32⟩
  | .hbm, ⟨15, _⟩ => ⟨S64x4096, .f32⟩
  | .hbm, ⟨16, _⟩ => ⟨S64x4096, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x4096, .f32⟩
  | .hbm, ⟨21, _⟩ => ⟨S64x4096, .f32⟩
  | .hbm, ⟨22, _⟩ => ⟨S64x4096x1, .f32⟩
  | .local _ .vmem, ⟨0, _⟩ => ⟨S8x512x512, .f32⟩
  | .local _ .vmem, ⟨1, _⟩ => ⟨S8x512x512, .f32⟩
  | .local _ .vmem, ⟨2, _⟩ => ⟨S512x256, .f32⟩
  | .local _ .vmem, ⟨3, _⟩ => ⟨S256, .f32⟩
  | .local _ .vmem, ⟨4, _⟩ => ⟨S1x256, .f32⟩
  | .local _ .vmem, ⟨5, _⟩ => ⟨S1, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x1, .f32⟩
  | .local _ .vmem, ⟨11, _⟩ => ⟨S8x1, .f32⟩
  | .local _ .vmem, ⟨12, _⟩ => ⟨S8x512, .f32⟩
  | _, _ => ⟨S64x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_27 : BitVec 32 := 0#32
  let v58 : BitVec 1 := Scalar.cmpi .ne v57 c0_i32_27
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S256x1_S1x256_1_0 : S256x1.Transposes [1, 0] S1x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x512_S8x512x512_0_0_0 : ∀ a, (![0, 0, 0] : Fin 3 → Nat) a + S8x512x512.size a ≤ S8x512x512.size a
  h_S8x512x512 : 0 < S8x512x512.numel
  bitsLt_bf16_f32 : FTy.bits .bf16 < FTy.bits .f32
  shapeCasts_S8x512x512_S4096x512 : S8x512x512.ShapeCasts S4096x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S1x256_S1x256_0_0 : ∀ a, (![0, 0] : Fin 2 → Nat) a + S1x256.size a ≤ S1x256.size a
  h_S1x256 : 0 < S1x256.numel
  shapeCasts_S1x256_S256 : S1x256.ShapeCasts S256
  reduces_S4096x256_S4096 : S4096x256.Reduces [1] S4096
  inb_S1_S1_0 : ∀ a, (![0] : Fin 1 → Nat) a + S1.size a ≤ S1.size a
  h_S1 : 0 < S1.numel
  broadcasts_S1_S4096 : S1.Broadcasts S4096
  shapeCasts_S4096_S8x512 : S4096.ShapeCasts S8x512
  reduces_S8x512_S8 : S8x512.Reduces [1] S8
  shapeCasts_S8_S8x1 : S8.ShapeCasts S8x1
  broadcasts_S8x1_S8x512 : S8x1.Broadcasts S8x512
  shapeCasts_S8x512_S8x1x512 : S8x512.ShapeCasts S8x1x512
  shapeCasts_S8x1x512_S8x512 : S8x1x512.ShapeCasts S8x512
  reducesTo_S64x4096_S64_d1 : S64x4096.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  bcast_S64x4096_S64x4096x1_0_1 : S64x4096.BroadcastsInDim S64x4096x1 (![0, 1] : Fin 2 → Fin S64x4096x1.rank)
  dot_S4096x512_S512x256_S4096x256_1_0_0_1_n_n_wf : DotDims.WF S4096x512 S512x256 S4096x256 [1] [0] [0] [1] [] []
  dot_S8x1x512_S8x512x512_S8x1x512_2_1_1_2_0_0_wf : DotDims.WF S8x1x512 S8x512x512 S8x1x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x4096x512.size a
  hwx0_0 : ∀ i : grid0.Coords, EltTy.bits .f32 = 32 ∨ (Rect.block (s := S64x4096x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S64x4096.size a
  hwx0_5 : ∀ i : grid0.Coords, EltTy.bits .f32 = 32 ∨ (Rect.block (s := S64x4096) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S64x512.size a
  hwx0_6 : ∀ i : grid0.Coords, EltTy.bits .f32 = 32 ∨ (Rect.block (s := S64x512) S8x512.size (cc0_transform_6 i) (hinb0_6 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S8x1x512_S8x512x512_S8x1x512_2_1_1_2_0_0 : DotDims S8x1x512 S8x512x512 S8x1x512 where
  lhsContracting := [2]
  rhsContracting := [1]
  lhsNonContracting := [1]
  rhsNonContracting := [2]
  lhsBatch := [0]
  rhsBatch := [0]
  wf := dot_S8x1x512_S8x512x512_S8x1x512_2_1_1_2_0_0_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S8x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x4096x512 : Shape := ⟨3, ![64, 4096, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S64x4096x256 : Shape := ⟨3, ![64, 4096, 256]⟩
abbrev S1x1x256 : Shape := ⟨3, ![1, 1, 256]⟩
abbrev S64x4096x1 : Shape := ⟨3, ![64, 4096, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩
abbrev S64x512 : Shape := ⟨2, ![64, 512]⟩

abbrev nBuf : Space → Nat
  | .hbm => 32
  | .vmem => 0
  | .smem => 0
  | _ => 0

abbrev bufTy : (tb : Table) → Fin (tcTables nBuf tb) → BufTy
  | .hbm, ⟨0, _⟩ => ⟨S64x4096x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S64x4096x256, .f32⟩
  | .hbm, ⟨6, _⟩ => ⟨S1x1x256, .f32⟩
  | .hbm, ⟨7, _⟩ => ⟨S64x4096x256, .f32⟩
  | .hbm, ⟨8, _⟩ => ⟨S64x4096x256, .f32⟩
  | .hbm, ⟨9, _⟩ => ⟨S64x4096x256, .f32⟩
  | .hbm, ⟨10, _⟩ => ⟨S64x4096x1, .f32⟩
  | .hbm, ⟨11, _⟩ => ⟨S1x1x1, .f32⟩
  | .hbm, ⟨12, _⟩ => ⟨S64x4096x1, .f32⟩
  | .hbm, ⟨13, _⟩ => ⟨S64x4096x1, .f32⟩
  | .hbm, ⟨14, _⟩ => ⟨S_, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1x1, .f32⟩
  | .hbm, ⟨20, _⟩ => ⟨S64x4096x1, .f32⟩
  | .hbm, ⟨21, _⟩ => ⟨S64x4096x1, .f32⟩
  | .hbm, ⟨22, _⟩ => ⟨S64x4096x1, .f32⟩
  | .hbm, ⟨23, _⟩ => ⟨S_, .f32⟩
  | .hbm, ⟨24, _⟩ => ⟨S64x1, .f32⟩
  | .hbm, ⟨25, _⟩ => ⟨S64x1x1, .f32⟩
  | .hbm, ⟨26, _⟩ => ⟨S64x4096x1, .f32⟩
  | .hbm, ⟨27, _⟩ => ⟨S64x4096x1, .f32⟩
  | .hbm, ⟨28, _⟩ => ⟨S64x4096x512, .f32⟩
  | .hbm, ⟨29, _⟩ => ⟨S64x4096x512, .f32⟩
  | .hbm, ⟨30, _⟩ => ⟨S_, .f32⟩
  | .hbm, ⟨31, _⟩ => ⟨S64x512, .f32⟩
  | _, _ => ⟨S64x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x4096x256_0_1_2 : S1x1x256.BroadcastsInDim S64x4096x256 (![0, 1, 2] : Fin 3 → Fin S64x4096x256.rank)
  bcast_S1_S1x1x1_2 : S1.BroadcastsInDim S1x1x1 (![2] : Fin 1 → Fin S1x1x1.rank)
  bcast_S1x1x1_S64x4096x1_0_1_2 : S1x1x1.BroadcastsInDim S64x4096x1 (![0, 1, 2] : Fin 3 → Fin S64x4096x1.rank)
  reducesTo_S64x4096x1_S64x1_d1 : S64x4096x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  bcast_S64x4096x1_S64x4096x512_0_1_2 : S64x4096x1.BroadcastsInDim S64x4096x512 (![0, 1, 2] : Fin 3 → Fin S64x4096x512.rank)
  reducesTo_S64x4096x512_S64x512_d1 : S64x4096x512.ReducesTo [1] S64x512
  dot_S64x4096x512_S512x256_S64x4096x256_2_0_01_1_n_n_wf : DotDims.WF S64x4096x512 S512x256 S64x4096x256 [2] [0] [0, 1] [1] [] []
  dot_S64x4096x256_S256x1_S64x4096x1_2_0_01_1_n_n_wf : DotDims.WF S64x4096x256 S256x1 S64x4096x1 [2] [0] [0, 1] [1] [] []

variable [Facts₀]

def dot_S64x4096x512_S512x256_S64x4096x256_2_0_01_1_n_n : DotDims S64x4096x512 S512x256 S64x4096x256 where
  lhsContracting := [2]
  rhsContracting := [0]
  lhsNonContracting := [0, 1]
  rhsNonContracting := [1]
  lhsBatch := []
  rhsBatch := []
  wf := dot_S64x4096x512_S512x256_S64x4096x256_2_0_01_1_n_n_wf
def dot_S64x4096x256_S256x1_S64x4096x1_2_0_01_1_n_n : DotDims S64x4096x256 S256x1 S64x4096x1 where
  lhsContracting := [2]
  rhsContracting := [0]
  lhsNonContracting := [0, 1]
  rhsNonContracting := [1]
  lhsBatch := []
  rhsBatch := []
  wf := dot_S64x4096x256_S256x1_S64x4096x1_2_0_01_1_n_n_wf

class Facts : Prop extends Facts₀ where

variable [Facts]
-- ==== Proof.Spec.lean ====
/-
  The mathematics of attention pooling over one batch row, on the extended reals.

  A row has 4096 positions. Its scores are `score b s = (∑ d, tanh ((∑ h, x b s h * w1 h d) + b1 d) * w2 d 0) + b2 0`.
  The softmax of a row subtracts the row's maximum, exponentiates, and divides by the sum of the exponentials; the
  pooled context of column `h` is the sum over positions of the softmax weight times `x b s h`.

  The same context can be accumulated tile by tile (8 tiles of 512 positions): keep a running maximum `onM`, a running
  sum of exponentials `onL` taken against the running maximum, and a running weighted sum `onA`; when the maximum
  grows from `m` to `m'` the two sums are rescaled by `exp (m - m')`. The context is then `onA 8 / onL 8`.
-/
import Idealize.ShloMosaic.PureOps.Ideal
import Idealize.ShloMosaic.Lib.ValueIdx

noncomputable section

namespace Cert.Spec

open Idealize.ShloMosaic Idealize.ShloMosaic.ValueIdx

/-- The score of position `s` of batch row `b`: a linear layer, `tanh`, and a second linear layer of width one. -/
def score (x : (⟨3, ![64, 4096, 512]⟩ : Shape).Idx → EReal) (w1 : (⟨2, ![512, 256]⟩ : Shape).Idx → EReal)
    (b1 : (⟨1, ![256]⟩ : Shape).Idx → EReal) (w2 : (⟨2, ![256, 1]⟩ : Shape).Idx → EReal)
    (b2 : (⟨1, ![1]⟩ : Shape).Idx → EReal) (b : Fin 64) (s : Fin 4096) : EReal :=
  (∑ d : Fin 256, Ideal.tanh ((∑ h : Fin 512, x (ix3 b s h) * w1 (ix2 h d)) + b1 (ix1 d)) * w2 (ix2 d 0)) + b2 (ix1 0)

/-- A row's maximum, as a fold of `max` from `-∞`. -/
def rowMax (sc : Fin 4096 → EReal) : EReal := (Finset.univ : Finset (Fin 4096)).fold max ⊥ sc

/-- The sum of a row's exponentials taken against its maximum. -/
def rowSum (sc : Fin 4096 → EReal) : EReal := ∑ s : Fin 4096, Ideal.exp (sc s - rowMax sc)

/-- The softmax weight of position `s`. -/
def attn (sc : Fin 4096 → EReal) (s : Fin 4096) : EReal := Ideal.div (Ideal.exp (sc s - rowMax sc)) (rowSum sc)

/-- The pooled context: the softmax-weighted sum of a column's entries. -/
def ctx (sc xs : Fin 4096 → EReal) : EReal := ∑ s : Fin 4096, attn sc s * xs s

/-- Position `k` of tile `n` (tiles of 512 positions; the remainder keeps the index in range for every `n`). -/
def tIdx (n : ℕ) (k : Fin 512) : Fin 4096 := ⟨(512 * n + k.val) % 4096, Nat.mod_lt _ (by norm_num)⟩

/-- The maximum of tile `n`. -/
def tileMax (sc : Fin 4096 → EReal) (n : ℕ) : EReal :=
  (Finset.univ : Finset (Fin 512)).fold max ⊥ fun k => sc (tIdx n k)

/-- The running maximum after `n` tiles. -/
def onM (sc : Fin 4096 → EReal) : ℕ → EReal
  | 0 => ⊥
  | n + 1 => max (onM sc n) (tileMax sc n)

/-- The running sum of exponentials after `n` tiles, taken against the running maximum. -/
def onL (sc : Fin 4096 → EReal) : ℕ → EReal
  | 0 => 0
  | n + 1 => Ideal.exp (onM sc n - onM sc (n + 1)) * onL sc n
      + ∑ k : Fin 512, Ideal.exp (sc (tIdx n k) - onM sc (n + 1))

/-- The running weighted sum of a column after `n` tiles, taken against the running maximum. -/
def onA (sc xs : Fin 4096 → EReal) : ℕ → EReal
  | 0 => 0
  | n + 1 => Ideal.exp (onM sc n - onM sc (n + 1)) * onA sc xs n
      + ∑ k : Fin 512, Ideal.exp (sc (tIdx n k) - onM sc (n + 1)) * xs (tIdx n k)

/-- The context as the tile-by-tile accumulation leaves it. -/
def ctxOnline (sc xs : Fin 4096 → EReal) : EReal := Ideal.div (onA sc xs 8) (onL sc 8)

theorem tIdx_val {n : ℕ} (hn : n < 8) (k : Fin 512) : (tIdx n k).val = 512 * n + k.val := by
  have := k.isLt
  exact Nat.mod_eq_of_lt (by omega)

end Cert.Spec

end
-- ==== Proof.Online.lean ====
/-
  The tile-by-tile accumulation of the softmax-weighted sum equals the softmax-weighted sum, for real scores and
  real column entries: when the running maximum grows from `m` to `m'`, `exp (m - m') * exp (s - m) = exp (s - m')`
  rescales every earlier term, so after the last tile the accumulator is `∑ exp (s - M) * x` and the sum is
  `∑ exp (s - M)` against the row's maximum `M`; dividing a sum by a nonzero real divides its terms.
-/
import proofs.«416236_j3435973837471_3_alg».proof.Proof.Spec
import Mathlib.Analysis.SpecialFunctions.Exp
import Mathlib.Data.Fintype.BigOperators
import Mathlib.Logic.Equiv.Fin.Basic
import Mathlib.Data.Finset.Lattice.Fold

noncomputable section

namespace Cert.Spec

open Idealize.ShloMosaic

namespace Online

/-- The coercion of the reals into the extended reals commutes with finite sums. -/
theorem coe_sum {ι : Type*} (s : Finset ι) (h : ι → ℝ) :
    ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : max (a : EReal) (b : EReal) = ((max a b : ℝ) : EReal) :=
  (EReal.coe_strictMono.monotone.map_max).symm

/-- A fold of the maximum over a nonempty finite family of reals is one of them, and bounds all of them. -/
theorem fold_max_coe {ι : Type*} [Fintype ι] [Nonempty ι] (h : ι → ℝ) :
    ∃ T : ℝ, (Finset.univ : Finset ι).fold max ⊥ (fun i => (h i : EReal)) = (T : EReal)
      ∧ (∀ i, h i ≤ T) ∧ ∃ i, h i = T := by
  obtain ⟨i, -, hi⟩ := Finset.exists_mem_eq_sup (Finset.univ : Finset ι) Finset.univ_nonempty
    (fun i => (h i : EReal))
  refine ⟨h i, hi, fun j => ?_, i, rfl⟩
  have hj := Finset.le_sup (f := fun i => (h i : EReal)) (Finset.mem_univ j)
  rw [hi] at hj
  exact_mod_cast hj

/-- The sum of the exponentials of the first `n` tiles taken against `M`. -/
def sumL (f : Fin 4096 → ℝ) (n : ℕ) (M : ℝ) : ℝ :=
  ∑ j ∈ Finset.range n, ∑ k : Fin 512, Real.exp (f (tIdx j k) - M)

/-- The weighted sum of the first `n` tiles taken against `M`. -/
def sumA (f g : Fin 4096 → ℝ) (n : ℕ) (M : ℝ) : ℝ :=
  ∑ j ∈ Finset.range n, ∑ k : Fin 512, Real.exp (f (tIdx j k) - M) * g (tIdx j k)

theorem sumL_rescale (f : Fin 4096 → ℝ) (n : ℕ) (M M' : ℝ) :
    Real.exp (M - M') * sumL f n M = sumL f n M' := by
  unfold sumL
  rw [Finset.mul_sum]
  refine Finset.sum_congr rfl fun j _ => ?_
  rw [Finset.mul_sum]
  refine Finset.sum_congr rfl fun k _ => ?_
  rw [← Real.exp_add]
  congr 1
  ring

theorem sumA_rescale (f g : Fin 4096 → ℝ) (n : ℕ) (M M' : ℝ) :
    Real.exp (M - M') * sumA f g n M = sumA f g n M' := by
  unfold sumA
  rw [Finset.mul_sum]
  refine Finset.sum_congr rfl fun j _ => ?_
  rw [Finset.mul_sum]
  refine Finset.sum_congr rfl fun k _ => ?_
  rw [← mul_assoc, ← Real.exp_add]
  congr 2
  ring

theorem sumL_succ (f : Fin 4096 → ℝ) (n : ℕ) (M : ℝ) :
    sumL f (n + 1) M = sumL f n M + ∑ k : Fin 512, Real.exp (f (tIdx n k) - M) :=
  Finset.sum_range_succ _ n

theorem sumA_succ (f g : Fin 4096 → ℝ) (n : ℕ) (M : ℝ) :
    sumA f g (n + 1) M = sumA f g n M + ∑ k : Fin 512, Real.exp (f (tIdx n k) - M) * g (tIdx n k) :=
  Finset.sum_range_succ _ n

/-- One tile's sum of exponentials is the coercion of the real sum. -/
theorem tile_sumL (f : Fin 4096 → ℝ) (n : ℕ) (M : ℝ) :
    ∑ k : Fin 512, Ideal.exp (((f (tIdx n k) : ℝ) : EReal) - (M : EReal))
      = ((∑ k : Fin 512, Real.exp (f (tIdx n k) - M) : ℝ) : EReal) := by
  rw [coe_sum]
  refine Finset.sum_congr rfl fun k _ => ?_
  rw [← EReal.coe_sub, Ideal.exp_coe]

/-- One tile's weighted sum is the coercion of the real sum. -/
theorem tile_sumA (f g : Fin 4096 → ℝ) (n : ℕ) (M : ℝ) :
    ∑ k : Fin 512, Ideal.exp (((f (tIdx n k) : ℝ) : EReal) - (M : EReal)) * ((g (tIdx n k) : ℝ) : EReal)
      = ((∑ k : Fin 512, Real.exp (f (tIdx n k) - M) * g (tIdx n k) : ℝ) : EReal) := by
  rw [coe_sum]
  refine Finset.sum_congr rfl fun k _ => ?_
  rw [← EReal.coe_sub, Ideal.exp_coe, ← EReal.coe_mul]

/-- After `n` tiles the running maximum is a real `M` that bounds the scores seen and is one of them, and the two
    running sums are the real sums taken against `M`. -/
def Holds (f g : Fin 4096 → ℝ) (n : ℕ) : Prop :=
  ∃ M : ℝ, onM (fun s => (f s : EReal)) n = (M : EReal)
    ∧ (∀ j, j < n → ∀ k, f (tIdx j k) ≤ M)
    ∧ (∃ j, j < n ∧ ∃ k, f (tIdx j k) = M)
    ∧ onL (fun s => (f s : EReal)) n = (sumL f n M : EReal)
    ∧ onA (fun s => (f s : EReal)) (fun s => (g s : EReal)) n = (sumA f g n M : EReal)

theorem tileMax_coe (f : Fin 4096 → ℝ) (n : ℕ) :
    ∃ T : ℝ, tileMax (fun s => (f s : EReal)) n = (T : EReal)
      ∧ (∀ k, f (tIdx n k) ≤ T) ∧ ∃ k, f (tIdx n k) = T :=
  fold_max_coe (fun k : Fin 512 => f (tIdx n k))

theorem holds_one (f g : Fin 4096 → ℝ) : Holds f g 1 := by
  obtain ⟨T, hT, hTle, kT, hkT⟩ := tileMax_coe f 0
  have hM : onM (fun s => (f s : EReal)) 1 = (T : EReal) := by
    show max ⊥ (tileMax (fun s => (f s : EReal)) 0) = (T : EReal)
    rw [hT]
    exact max_eq_right bot_le
  refine ⟨T, hM, ?_, ⟨0, Nat.one_pos, kT, hkT⟩, ?_, ?_⟩
  · intro j hj k
    obtain rfl : j = 0 := by omega
    exact hTle k
  · show Ideal.exp (onM (fun s => (f s : EReal)) 0 - onM (fun s => (f s : EReal)) 1)
        * onL (fun s => (f s : EReal)) 0
        + ∑ k : Fin 512, Ideal.exp (((f (tIdx 0 k) : ℝ) : EReal) - onM (fun s => (f s : EReal)) 1)
      = (sumL f 1 T : EReal)
    rw [hM]
    show Ideal.exp (⊥ - (T : EReal)) * 0 + _ = _
    rw [mul_zero, zero_add, tile_sumL, sumL, Finset.sum_range_one]
  · show Ideal.exp (onM (fun s => (f s : EReal)) 0 - onM (fun s => (f s : EReal)) 1)
        * onA (fun s => (f s : EReal)) (fun s => (g s : EReal)) 0
        + ∑ k : Fin 512, Ideal.exp (((f (tIdx 0 k) : ℝ) : EReal) - onM (fun s => (f s : EReal)) 1)
            * ((g (tIdx 0 k) : ℝ) : EReal)
      = (sumA f g 1 T : EReal)
    rw [hM]
    show Ideal.exp (⊥ - (T : EReal)) * 0 + _ = _
    rw [mul_zero, zero_add, tile_sumA, sumA, Finset.sum_range_one]

theorem holds_succ (f g : Fin 4096 → ℝ) (n : ℕ) (h : Holds f g n) : Holds f g (n + 1) := by
  obtain ⟨M, hM, hle, ⟨j0, hj0, k0, hk0⟩, hL, hA⟩ := h
  obtain ⟨T, hT, hTle, kT, hkT⟩ := tileMax_coe f n
  have hM' : onM (fun s => (f s : EReal)) (n + 1) = ((max M T : ℝ) : EReal) := by
    show max (onM (fun s => (f s : EReal)) n) (tileMax (fun s => (f s : EReal)) n) = _
    rw [hM, hT, coe_max]
  refine ⟨max M T, hM', ?_, ?_, ?_, ?_⟩
  · intro j hj k
    rcases Nat.lt_succ_iff_lt_or_eq.mp hj with hlt | rfl
    · exact le_trans (hle j hlt k) (le_max_left _ _)
    · exact le_trans (hTle k) (le_max_right _ _)
  · rcases max_choice M T with hc | hc
    · rw [hc]; exact ⟨j0, Nat.lt_succ_of_lt hj0, k0, hk0⟩
    · rw [hc]; exact ⟨n, Nat.lt_succ_self n, kT, hkT⟩
  · show Ideal.exp (onM (fun s => (f s : EReal)) n - onM (fun s => (f s : EReal)) (n + 1))
        * onL (fun s => (f s : EReal)) n
        + ∑ k : Fin 512, Ideal.exp (((f (tIdx n k) : ℝ) : EReal) - onM (fun s => (f s : EReal)) (n + 1))
      = (sumL f (n + 1) (max M T) : EReal)
    rw [hM', hM, hL, ← EReal.coe_sub, Ideal.exp_coe, tile_sumL, ← EReal.coe_mul, ← EReal.coe_add,
      sumL_rescale, sumL_succ]
  · show Ideal.exp (onM (fun s => (f s : EReal)) n - onM (fun s => (f s : EReal)) (n + 1))
        * onA (fun s => (f s : EReal)) (fun s => (g s : EReal)) n
        + ∑ k : Fin 512, Ideal.exp (((f (tIdx n k) : ℝ) : EReal) - onM (fun s => (f s : EReal)) (n + 1))
            * ((g (tIdx n k) : ℝ) : EReal)
      = (sumA f g (n + 1) (max M T) : EReal)
    rw [hM', hM, hA, ← EReal.coe_sub, Ideal.exp_coe, tile_sumA, ← EReal.coe_mul, ← EReal.coe_add,
      sumA_rescale, sumA_succ]

theorem holds_all (f g : Fin 4096 → ℝ) (n : ℕ) : Holds f g (n + 1) := by
  induction n with
  | zero => exact holds_one f g
  | succ n ih => exact holds_succ f g (n + 1) ih

/-- Every position lies in one of the 8 tiles. -/
theorem tIdx_surj (s : Fin 4096) : ∃ j, j < 8 ∧ ∃ k : Fin 512, tIdx j k = s := by
  have hs := s.isLt
  refine ⟨s.val / 512, by omega, ⟨s.val % 512, Nat.mod_lt _ (by norm_num)⟩, ?_⟩
  apply Fin.ext
  rw [tIdx_val (by omega)]
  show 512 * (s.val / 512) + s.val % 512 = s.val
  omega

/-- A sum over the 4096 positions is the sum over the 8 tiles of the sums over their 512 positions. -/
theorem sum_tiles {α : Type*} [AddCommMonoid α] (F : Fin 4096 → α) :
    ∑ s : Fin 4096, F s = ∑ j ∈ Finset.range 8, ∑ k : Fin 512, F (tIdx j k) := by
  rw [Finset.sum_range (fun j => ∑ k : Fin 512, F (tIdx j k)),
    ← Fintype.sum_prod_type' (f := fun (j : Fin 8) (k : Fin 512) => F (tIdx j k))]
  symm
  refine Fintype.sum_equiv (finProdFinEquiv (m := 8) (n := 512)) _ _ fun x => ?_
  congr 1
  apply Fin.ext
  rw [tIdx_val x.1.isLt]
  show 512 * x.1.val + x.2.val = x.2.val + 512 * x.1.val
  omega

theorem ctxOnline_eq_ctx_real (f g : Fin 4096 → ℝ) :
    ctxOnline (fun s => (f s : EReal)) (fun s => (g s : EReal))
      = ctx (fun s => (f s : EReal)) (fun s => (g s : EReal)) := by
  obtain ⟨M, hM, hle, ⟨j0, hj0, k0, hk0⟩, hL, hA⟩ := holds_all f g 7
  have hMax : rowMax (fun s => (f s : EReal)) = (M : EReal) := by
    obtain ⟨T, hT, hTle, s0, hs0⟩ := fold_max_coe f
    have hTM : T = M := by
      apply le_antisymm
      · obtain ⟨j, hj, k, hk⟩ := tIdx_surj s0
        rw [← hs0, ← hk]
        exact hle j hj k
      · rw [← hk0]
        exact hTle _
    rw [← hTM]
    exact hT
  have hLs : sumL f 8 M = ∑ s : Fin 4096, Real.exp (f s - M) :=
    (sum_tiles fun s => Real.exp (f s - M)).symm
  have hAs : sumA f g 8 M = ∑ s : Fin 4096, Real.exp (f s - M) * g s :=
    (sum_tiles fun s => Real.exp (f s - M) * g s).symm
  have hpos : 0 < sumL f 8 M := by
    rw [hLs]
    exact Finset.sum_pos (fun s _ => Real.exp_pos _) Finset.univ_nonempty
  have hne : sumL f 8 M ≠ 0 := hpos.ne'
  have hrow : rowSum (fun s => (f s : EReal)) = (sumL f 8 M : EReal) := by
    unfold rowSum
    rw [hMax, hLs, coe_sum]
    refine Finset.sum_congr rfl fun s _ => ?_
    rw [← EReal.coe_sub, Ideal.exp_coe]
  unfold ctxOnline ctx attn
  rw [hA, hL, hrow, hMax, Ideal.div_coe hne, ← EReal.coe_mul, hAs, Finset.sum_mul, coe_sum]
  refine Finset.sum_congr rfl fun s _ => ?_
  rw [← EReal.coe_sub, Ideal.exp_coe, Ideal.div_coe hne, ← EReal.coe_mul, ← EReal.coe_mul]
  rw [mul_right_comm]

end Online

/-- For real scores and real entries, the accumulated context is the softmax-weighted sum. -/
theorem ctxOnline_eq_ctx (sc xs : Fin 4096 → EReal) (hsc : ∀ s, ∃ r : ℝ, sc s = (r : EReal))
    (hxs : ∀ s, ∃ r : ℝ, xs s = (r : EReal)) : ctxOnline sc xs = ctx sc xs := by
  choose f hf using hsc
  choose g hg using hxs
  obtain rfl : sc = fun s => (f s : EReal) := funext hf
  obtain rfl : xs = fun s => (g s : EReal) := funext hg
  exact Online.ctxOnline_eq_ctx_real f g

end Cert.Spec

end
-- ==== Proof.ScoreReal.lean ====
/-
  With real inputs every score is a real number: sums and products of reals are real, and `tanh` of a real is real.
-/
import proofs.«416236_j3435973837471_3_alg».proof.Proof.Spec

noncomputable section

namespace Cert.Spec

open Idealize.ShloMosaic Idealize.ShloMosaic.ValueIdx

/-- A finite sum of reals is a real. -/
theorem real_sum {ι : Type} (t : Finset ι) (f : ι → EReal) (hf : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨r, hr⟩ := hf a (Finset.mem_insert_self _ _)
    obtain ⟨q, hq⟩ := ih (fun i hi => hf i (Finset.mem_insert_of_mem hi))
    exact ⟨r + q, by rw [Finset.sum_insert ha, hr, hq, EReal.coe_add]⟩

/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- A sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- The hyperbolic tangent of a real is a real. -/
theorem real_tanh {a : EReal} (ha : ∃ r : ℝ, a = (r : EReal)) : ∃ r : ℝ, Ideal.tanh a = (r : EReal) := by
  obtain ⟨r, rfl⟩ := ha
  exact ⟨Real.tanh r, rfl⟩

theorem score_real (x : (⟨3, ![64, 4096, 512]⟩ : Shape).Idx → EReal) (w1 : (⟨2, ![512, 256]⟩ : Shape).Idx → EReal)
    (b1 : (⟨1, ![256]⟩ : Shape).Idx → EReal) (w2 : (⟨2, ![256, 1]⟩ : Shape).Idx → EReal)
    (b2 : (⟨1, ![1]⟩ : Shape).Idx → EReal)
    (hx : ∀ i, ∃ r : ℝ, x i = (r : EReal)) (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) (b : Fin 64) (s : Fin 4096) :
    ∃ r : ℝ, score x w1 b1 w2 b2 b s = (r : EReal) := by
  unfold score
  refine real_add (real_sum _ _ fun d _ => real_mul (real_tanh (real_add ?_ (hb1 _))) (hw2 _)) (hb2 _)
  exact real_sum _ _ fun h _ => real_mul (hx _) (hw1 _)

end Cert.Spec

end
-- ==== Proof.Finite.lean ====
/-
  Finite inputs are real numbers: where the precondition `|x| < +∞` holds of every entry of the five argument
  arrays, every entry is (the image of) a real number.
-/
import proofs.«416236_j3435973837471_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Finite

open Idealize.ShloMosaic Cert.Pre_finite_inputs

/-- The shape of rank zero has one index. -/
instance : Subsingleton S_.Idx := ⟨fun a b => funext fun d => d.elim0⟩

/-- The pattern `0x7F800000` denotes `+∞`. -/
theorem ofBits_inf : Ideal.ofBits .f32 0x7F800000#32 = (⊤ : EReal) := by simp [Ideal.ofBits, Ideal.ieee]

/-- An extended real whose absolute value `max x (-x)` is below `+∞` is a real number. -/
theorem real_of_abs_lt_top {x : EReal} (h : max x (-x) < ⊤) : ∃ r : ℝ, x = (r : EReal) := by
  induction x using EReal.rec with
  | bot => simp at h
  | top => simp at h
  | coe r => exact ⟨r, rfl⟩

/-- Where the comparison `|a i| < +∞` (against the broadcast constant) holds, `a i` is a real number. -/
theorem real_of_cmp {T : Shape} (hb : S_.BroadcastsInDim T ![]) (a : FVec Ideal T .f32) (i : T.Idx)
    (e : cmpf .olt (Host.absf a) (broadcastInDim T ![] hb (constant (F := Ideal) S_ .f32 0x7F800000#32)) i = 1#1) :
    ∃ r : ℝ, a i = (r : EReal) := by
  rw [ValueIdx.cmpf_apply, ValueIdx.broadcastInDim_scalar_apply, ValueIdx.constant_apply, ofBits_inf] at e
  refine real_of_abs_lt_top ?_
  by_contra hc
  change Ideal.cmp .olt (max (a i) (-(a i))) ⊤ = 1#1 at e
  simp [Ideal.cmp, hc] at e

/-- Where `finite_inputs` holds, every entry of every argument array is a real number. -/
theorem real_of_fn [Cert.Pre_finite_inputs.Facts] (a0 : FVec Ideal S64x4096x512 .f32) (a1 : FVec Ideal S512x256 .f32)
    (a2 : FVec Ideal S256 .f32) (a3 : FVec Ideal S256x1 .f32) (a4 : FVec Ideal S1 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_cmp _ a0 i (Host.reduce_andi_all _ _ _ _ _ e0 i),
    fun i => real_of_cmp _ a1 i (Host.reduce_andi_all _ _ _ _ _ e1 i),
    fun i => real_of_cmp _ a2 i (Host.reduce_andi_all _ _ _ _ _ e2 i),
    fun i => real_of_cmp _ a3 i (Host.reduce_andi_all _ _ _ _ _ e3 i),
    fun i => real_of_cmp _ a4 i (Host.reduce_andi_all _ _ _ _ _ e4 i)⟩

end Cert.Finite

end
-- ==== Proof.RefValue.lean ====
/-
  The reference's two results read at an index, on the extended reals: the context is the softmax-weighted sum over
  positions of the row's entries, the attention weights are the row's softmax.
-/
import proofs.«416236_j3435973837471_3_alg».proof.Proof.Spec
import proofs.«416236_j3435973837471_3_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The bit pattern of negative infinity denotes the least extended real. -/
theorem negInf_eq_bot : Ideal.ofBits .f32 0xFF800000#32 = (⊥ : EReal) := by
  simp [Ideal.ofBits, Ideal.ieee]

/-- The score stage of the reference at batch row `b`, position `s`. -/
theorem v8_apply (x0 : (⟨S64x4096x512, .f32⟩ : BufTy).Contents (Elt Ideal)) (x1 : (⟨S512x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal)) (b : Fin 64) (s : Fin 4096) :
    val_main_v8 (F := Ideal) x0 x1 x2 x3 x4 (ix3 b s 0) = Cert.Spec.score x0 x1 x2 x3 x4 b s := by
  have e5l : ∀ d : Fin 256, lidx_main_v5 (ix3 b s 0) d = ix3 b s d := fun d =>
    funext fun a => Fin.ext (by match a with | ⟨0, _⟩ => rfl | ⟨1, _⟩ => rfl | ⟨2, _⟩ => rfl)
  have e5r : ∀ d : Fin 256, ridx_main_v5 (ix3 b s 0) d = ix2 d 0 := fun d =>
    funext fun a => Fin.ext (by match a with | ⟨0, _⟩ => rfl | ⟨1, _⟩ => rfl)
  have e0l : ∀ (d : Fin 256) (h : Fin 512), lidx_main_v0 (ix3 b s d) h = ix3 b s h := fun d h =>
    funext fun a => Fin.ext (by match a with | ⟨0, _⟩ => rfl | ⟨1, _⟩ => rfl | ⟨2, _⟩ => rfl)
  have e0r : ∀ (d : Fin 256) (h : Fin 512), ridx_main_v0 (ix3 b s d) h = ix2 h d := fun d h =>
    funext fun a => Fin.ext (by match a with | ⟨0, _⟩ => rfl | ⟨1, _⟩ => rfl)
  have e1 : ∀ d : Fin 256, idx_main_v1 (idx_main_v2 (ix3 b s d)) = ix1 d := fun d =>
    funext fun a => Fin.ext (by match a with | ⟨0, _⟩ => rfl)
  have e6 : idx_main_v6 (idx_main_v7 (ix3 b s 0)) = ix1 0 :=
    funext fun a => Fin.ext (by match a with | ⟨0, _⟩ => rfl)
  rw [val_main_v8_apply, val_main_v5_apply, val_main_v7_apply, val_main_v6_apply, e6]
  unfold Cert.Spec.score
  rw [Ideal.addf_def]
  refine congrArg (· + x4 (ix1 0)) (Finset.sum_congr rfl fun d _ => ?_)
  rw [e5l, e5r, val_main_v4_apply, val_main_v3_apply, val_main_v0_apply, val_main_v2_apply, val_main_v1_apply, e1,
    Ideal.hostUnary_tanh_def, Ideal.addf_def]
  refine congrArg (fun t => Ideal.tanh (t + x2 (ix1 d)) * x3 (ix2 d 0)) (Finset.sum_congr rfl fun h _ => ?_)
  rw [e0l, e0r]

/-- A fold of the maximum over the positions of row `b` of a `[64, 4096, 1]` array, read position by position. -/
theorem fold_max_row (y : (⟨S64x4096x1, .f32⟩ : BufTy).Contents (Elt Ideal)) (hR : S64x4096x1.Reduces [1] S64x1) (b : Fin 64)
    (init : EReal) :
    (Finset.univ : Finset (Fin (S64x4096x1.size 1))).fold (FloatOps.maximumf (F := Ideal) (φ := .f32)) init (y ∘ hR.lift (ix2 b 0))
      = (Finset.univ : Finset (Fin 4096)).fold max init (fun k => y (ix3 b k 0)) := by
  have e : (y ∘ hR.lift (ix2 b 0)) = fun k : Fin 4096 => y (ix3 b k 0) := funext fun k =>
    congrArg y (funext fun a => Fin.ext (by match a with | ⟨0, _⟩ => rfl | ⟨1, _⟩ => rfl | ⟨2, _⟩ => rfl))
  rw [e]
  rfl

/-- The maximum stage: the row's maximum, as a fold from `-∞`. -/
theorem v11_apply (x0 : (⟨S64x4096x512, .f32⟩ : BufTy).Contents (Elt Ideal)) (x1 : (⟨S512x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal)) (b : Fin 64) :
    val_main_v11 (F := Ideal) x0 x1 x2 x3 x4 (ix2 b 0) = Cert.Spec.rowMax (Cert.Spec.score x0 x1 x2 x3 x4 b) := by
  have hR : S64x4096x1.Reduces [1] S64x1 := by decide
  rw [val_main_v11_apply, val_main_v10_apply, val_main_cst_0_apply, Ideal.ofBits_def, negInf_eq_bot, Ideal.maximumf_def,
    bot_sup_eq]
  unfold val_main_v9
  generalize hy : val_main_v8 (F := Ideal) x0 x1 x2 x3 x4 = y
  refine (Host.reduce_eq_fold_single (FloatOps.maximumf (F := Ideal) (φ := .f32)) y (val_main_cst (F := Ideal))
    reducesTo_S64x4096x1_S64x1_d1 hR h_S_ (ix2 b 0)).trans ?_
  rw [val_main_cst_apply, Ideal.ofBits_def, negInf_eq_bot]
  refine (fold_max_row y hR b ⊥).trans ?_
  unfold Cert.Spec.rowMax
  refine congrArg (fun f => Finset.fold max ⊥ f (Finset.univ : Finset (Fin 4096))) (funext fun k => ?_)
  rw [← hy, v8_apply]

/-- The exponential stage: the exponential of a score taken against the row's maximum. -/
theorem v15_apply (x0 : (⟨S64x4096x512, .f32⟩ : BufTy).Contents (Elt Ideal)) (x1 : (⟨S512x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal)) (b : Fin 64) (s : Fin 4096) :
    val_main_v15 (F := Ideal) x0 x1 x2 x3 x4 (ix3 b s 0)
      = Ideal.exp (Cert.Spec.score x0 x1 x2 x3 x4 b s - Cert.Spec.rowMax (Cert.Spec.score x0 x1 x2 x3 x4 b)) := by
  have e : idx_main_v12 (idx_main_v13 (ix3 b s 0)) = ix2 b 0 :=
    funext fun a => Fin.ext (by match a with | ⟨0, _⟩ => rfl | ⟨1, _⟩ => rfl)
  rw [val_main_v15_apply, val_main_v14_apply, val_main_v13_apply, val_main_v12_apply, e, v11_apply, v8_apply,
    Ideal.hostUnary_exp_def, Ideal.subf_def]

/-- The sum stage: the sum of the row's exponentials. -/
theorem v16_apply (x0 : (⟨S64x4096x512, .f32⟩ : BufTy).Contents (Elt Ideal)) (x1 : (⟨S512x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal)) (b : Fin 64) :
    val_main_v16 (F := Ideal) x0 x1 x2 x3 x4 (ix2 b 0) = Cert.Spec.rowSum (Cert.Spec.score x0 x1 x2 x3 x4 b) := by
  have e : ∀ k : Fin 4096, idx_main_v16 (ix2 b 0) k = ix3 b k 0 := fun k =>
    funext fun a => Fin.ext (by match a with | ⟨0, _⟩ => rfl | ⟨1, _⟩ => rfl | ⟨2, _⟩ => rfl)
  rw [val_main_v16_apply, val_main_cst_1_apply, Ideal.ofBits_def, Ideal.ofBits_zero_f32, zero_add]
  unfold Cert.Spec.rowSum
  refine Finset.sum_congr rfl fun k _ => ?_
  rw [e, v15_apply]

/-- The reference's attention weight at batch row `b`, position `s`. -/
theorem v19_apply (x0 : (⟨S64x4096x512, .f32⟩ : BufTy).Contents (Elt Ideal)) (x1 : (⟨S512x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal)) (b : Fin 64) (s : Fin 4096) :
    val_main_v19 (F := Ideal) x0 x1 x2 x3 x4 (ix3 b s 0)
      = Cert.Spec.attn (Cert.Spec.score x0 x1 x2 x3 x4 b) s := by
  have e : idx_main_v17 (idx_main_v18 (ix3 b s 0)) = ix2 b 0 :=
    funext fun a => Fin.ext (by match a with | ⟨0, _⟩ => rfl | ⟨1, _⟩ => rfl)
  rw [val_main_v19_apply, val_main_v18_apply, val_main_v17_apply, e, v16_apply, v15_apply, Ideal.hostDivf_def]
  rfl

/-- The reference's context at batch row `b`, column `h`. -/
theorem v22_apply (x0 : (⟨S64x4096x512, .f32⟩ : BufTy).Contents (Elt Ideal)) (x1 : (⟨S512x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal)) (b : Fin 64) (h : Fin 512) :
    val_main_v22 (F := Ideal) x0 x1 x2 x3 x4 (ix2 b h)
      = Cert.Spec.ctx (Cert.Spec.score x0 x1 x2 x3 x4 b) (fun s => x0 (ix3 b s h)) := by
  have e : ∀ k : Fin 4096, idx_main_v22 (ix2 b h) k = ix3 b k h := fun k =>
    funext fun a => Fin.ext (by match a with | ⟨0, _⟩ => rfl | ⟨1, _⟩ => rfl | ⟨2, _⟩ => rfl)
  have e20 : ∀ k : Fin 4096, idx_main_v20 (ix3 b k h) = ix3 b k 0 := fun k =>
    funext fun a => Fin.ext (by match a with | ⟨0, _⟩ => rfl | ⟨1, _⟩ => rfl | ⟨2, _⟩ => rfl)
  rw [val_main_v22_apply, val_main_cst_2_apply, Ideal.ofBits_def, Ideal.ofBits_zero_f32, zero_add]
  unfold Cert.Spec.ctx
  refine Finset.sum_congr rfl fun k _ => ?_
  rw [e, val_main_v21_apply, val_main_v20_apply, e20, v19_apply, Ideal.mulf_def]

end Cert.ReferenceIdeal.RefValue

end
-- ==== Proof.Blocks.lean ====
/-
  Each window's block at a grid point, read off the argument arrays.

  The grid is 8 row blocks by 8 tiles, point `t` being row block `t / 8`, tile `t % 8`. The input block of `x` at
  point `t` holds rows `8 (t / 8) + r`, positions `512 (t % 8) + k`, every column; the weights and biases are whole
  arrays at every point, the second layer's weights through the transpose the host applies before the region.
-/
import proofs.«416236_j3435973837471_3_alg».proof.Proof.Gen.KernelIdeal.Frame
import proofs.«416236_j3435973837471_3_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ)

/-! ## The argument arrays and the blocks, at their literal types -/

abbrev xarr (c : Dev nD) : Vec Ideal S64x4096x512 .f32 := m ((c : Thread nD τ).loc main_arg0)
abbrev w1arr (c : Dev nD) : Vec Ideal S512x256 .f32 := m ((c : Thread nD τ).loc main_arg1)
abbrev b1arr (c : Dev nD) : Vec Ideal S256 .f32 := m ((c : Thread nD τ).loc main_arg2)
abbrev w2arr (c : Dev nD) : Vec Ideal S256x1 .f32 := m ((c : Thread nD τ).loc main_arg3)
abbrev b2arr (c : Dev nD) : Vec Ideal S1 .f32 := m ((c : Thread nD τ).loc main_arg4)

abbrev xb (c : Dev nD) (t : Fin cfg0.N) : Vec Ideal S8x512x512 .f32 := iblk m c 0 t
abbrev w1b (c : Dev nD) (t : Fin cfg0.N) : Vec Ideal S512x256 .f32 := iblk m c 1 t
abbrev b1b (c : Dev nD) (t : Fin cfg0.N) : Vec Ideal S256 .f32 := iblk m c 2 t
abbrev w2b (c : Dev nD) (t : Fin cfg0.N) : Vec Ideal S1x256 .f32 := iblk m c 3 t
abbrev b2b (c : Dev nD) (t : Fin cfg0.N) : Vec Ideal S1 .f32 := iblk m c 4 t

/-- The scores of batch row `b`. -/
def SC (c : Dev nD) (b : Fin 64) : Fin 4096 → EReal :=
  score (xarr m c) (w1arr m c) (b1arr m c) (w2arr m c) (b2arr m c) b

/-- Column `h` of batch row `b`, along the positions. -/
def XC (c : Dev nD) (b : Fin 64) (h : Fin 512) : Fin 4096 → EReal := fun s => xarr m c (ix3 b s h)

theorem N64 : cfg0.N = 64 := N_0

/-- The batch row that row `r` of point `t`'s block is. -/
def brow (t : Fin cfg0.N) (r : Fin 8) : Fin 64 :=
  ⟨8 * (t.val / 8) + r.val, by have h : t.val < 64 := lt_of_lt_of_eq t.isLt N64; have := r.isLt; omega⟩

/-- The printed index maps, decided over the grid. -/
theorem idx_facts : ∀ t : Fin cfg0.N, win0_0.index t (0 : Fin 3) = t.val / 8 ∧ win0_0.index t (1 : Fin 3) = t.val % 8
    ∧ win0_0.index t (2 : Fin 3) = 0 ∧ win0_1.index t (0 : Fin 2) = 0 ∧ win0_1.index t (1 : Fin 2) = 0
    ∧ win0_2.index t (0 : Fin 1) = 0 ∧ win0_3.index t (0 : Fin 2) = 0 ∧ win0_3.index t (1 : Fin 2) = 0
    ∧ win0_4.index t (0 : Fin 1) = 0 ∧ win0_5.index t (0 : Fin 2) = t.val / 8 ∧ win0_5.index t (1 : Fin 2) = t.val % 8
    ∧ win0_6.index t (0 : Fin 2) = t.val / 8 ∧ win0_6.index t (1 : Fin 2) = 0 :=
  (by decide +kernel : ∀ t : Fin grid0.N, _)

/-! ## The blocks read off the arrays -/

/-- The input block at point `t`: rows of row block `t / 8`, positions of tile `t % 8`. -/
theorem xb_apply (c : Dev nD) (t : Fin cfg0.N) (r : Fin 8) (k h : Fin 512) :
    xb m c t (ix3 r k h) = xarr m c (ix3 (brow t r) (tIdx (t.val % 8) k) h) := by
  have hN : t.val < 64 := lt_of_lt_of_eq t.isLt N64
  obtain ⟨e0, e1, e2, -⟩ := idx_facts t
  show iblk m c 0 t (ix3 r k h) = _
  unfold iblk
  rw [View.read_apply]
  show V m c main_arg0 _ = m ((c : Thread nD τ).loc main_arg0) _
  rw [V_main_arg0]
  congr 1
  funext a
  apply Fin.ext
  have hk := k.isLt
  match a with
  | ⟨0, _⟩ => show win0_0.index t (0 : Fin 3) * 8 + 1 * r.val = 8 * (t.val / 8) + r.val; rw [e0]; omega
  | ⟨1, _⟩ => show win0_0.index t (1 : Fin 3) * 512 + 1 * k.val = (512 * (t.val % 8) + k.val) % 4096; rw [e1]; omega
  | ⟨2, _⟩ => show win0_0.index t (2 : Fin 3) * 512 + 1 * h.val = h.val; rw [e2]; omega

/-- The first layer's weights: the whole array at every point. -/
theorem w1b_apply (c : Dev nD) (t : Fin cfg0.N) (h : Fin 512) (d : Fin 256) :
    w1b m c t (ix2 h d) = w1arr m c (ix2 h d) := by
  obtain ⟨-, -, -, e0, e1, -⟩ := idx_facts t
  show iblk m c 1 t (ix2 h d) = _
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 512 + 1 * h.val = h.val; rw [e0]; omega
  | ⟨1, _⟩ => show win0_1.index t (1 : Fin 2) * 256 + 1 * d.val = d.val; rw [e1]; omega

/-- The first layer's bias. -/
theorem b1b_apply (c : Dev nD) (t : Fin cfg0.N) (d : Fin 256) : b1b m c t (ix1 d) = b1arr m c (ix1 d) := by
  obtain ⟨-, -, -, -, -, e0, -⟩ := idx_facts t
  show iblk m c 2 t (ix1 d) = _
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 1) * 256 + 1 * d.val = d.val; rw [e0]; omega

/-- The second layer's bias. -/
theorem b2b_apply (c : Dev nD) (t : Fin cfg0.N) : b2b m c t (ix1 0) = b2arr m c (ix1 0) := by
  obtain ⟨-, -, -, -, -, -, -, -, e0, -⟩ := idx_facts t
  show iblk m c 4 t (ix1 0) = _
  unfold iblk
  rw [View.read_apply]
  show V m c main_arg4 _ = m ((c : Thread nD τ).loc main_arg4) _
  rw [V_main_arg4]
  congr 1
  funext a
  apply Fin.ext
  match a with
  | ⟨0, _⟩ => show win0_4.index t (0 : Fin 1) * 1 + 1 * 0 = 0; rw [e0]

/-- The transposed second-layer weights the region finds: entry `(0, d)` is entry `(d, 0)` of the argument. -/
theorem v0_apply (c : Dev nD) (d : Fin 256) :
    (V m c main_v0 : Vec Ideal S1x256 .f32) (ix2 0 d) = w2arr m c (ix2 d 0) := by
  have e : (V m c main_v0 : S1x256.Idx → EReal)
      = transpose S1x256 [1, 0] (m ((c : Thread nD τ).loc main_arg3)) Facts₀.transposes_S256x1_S1x256_1_0 := by
    show StableHlo.after hostOps0 (fun b => m (c, b)) (Proc.devRef .tc main_v0) = _
    after_results
  rw [e]
  exact transpose_apply _ _ _ _ (ix2 d 0) (fun b => by match b with | ⟨0, _⟩ => rfl | ⟨1, _⟩ => rfl)

/-- The second layer's weights, as the row the kernel reads. -/
theorem w2b_apply (c : Dev nD) (t : Fin cfg0.N) (d : Fin 256) : w2b m c t (ix2 0 d) = w2arr m c (ix2 d 0) := by
  obtain ⟨-, -, -, -, -, -, e0, e1, -⟩ := idx_facts t
  rw [← v0_apply m c d]
  show iblk m c 3 t (ix2 0 d) = _
  unfold iblk
  rw [View.read_apply]
  show V m c main_v0 _ = V m c main_v0 _
  congr 1
  funext a
  apply Fin.ext
  match a with
  | ⟨0, _⟩ => show win0_3.index t (0 : Fin 2) * 1 + 1 * 0 = 0; rw [e0]
  | ⟨1, _⟩ => show win0_3.index t (1 : Fin 2) * 256 + 1 * d.val = d.val; rw [e1]; omega

end Cert.KernelIdeal.Blocks

end
-- ==== Proof.Steps.lean ====
/-
  One tile's update of the attention-pooling state, as pure functions of the tile's input blocks and the previous
  state: the new running maximum, the rescaled running sum of exponentials, the rescaled weighted accumulator, and
  the context block (accumulator divided by sum) that the last tile of a row block stores.
-/
import proofs.«416236_j3435973837471_3_alg».proof.Proof.Gen.KernelIdeal.Skeleton

noncomputable section

namespace Cert.KernelIdeal.Pieces

open Idealize.ShloMosaic Idealize.ShloMosaic.TcCoe
open Cert.KernelIdeal Cert.KernelIdeal.Gen

variable {F : FTy → Type} [FloatOps F]

/-- The running maximum after a tile: the previous maximum against the tile's. -/
def mNew (x0 : Vec F S8x512x512 .f32) (x1 : Vec F S512x256 .f32) (x2 : Vec F S256 .f32) (x3 : Vec F S1x256 .f32) (x4 : Vec F S1 .f32) (mp : Vec F S8x1 .f32) : Vec F S8x1 .f32 :=
  k0_pay3 (k0_pay10 x0 x1 x2 x3 x4 mp)

/-- The running sum of exponentials after a tile, rescaled to the new maximum. -/
def lNew (x0 : Vec F S8x512x512 .f32) (x1 : Vec F S512x256 .f32) (x2 : Vec F S256 .f32) (x3 : Vec F S1x256 .f32) (x4 : Vec F S1 .f32) (mp lp : Vec F S8x1 .f32) : Vec F S8x1 .f32 :=
  k0_pay1 (k0_pay12 x0 x1 x2 x3 x4 mp) (k0_pay13 x0 x1 x2 x3 x4 mp lp)

/-- The running weighted accumulator after a tile, rescaled to the new maximum. -/
def aNew (x0 : Vec F S8x512x512 .f32) (x1 : Vec F S512x256 .f32) (x2 : Vec F S256 .f32) (x3 : Vec F S1x256 .f32) (x4 : Vec F S1 .f32) (mp : Vec F S8x1 .f32) (ap : Vec F S8x512 .f32) : Vec F S8x512 .f32 :=
  k0_pay2 (k0_pay8 x0) (k0_pay11 x0 x1 x2 x3 x4 mp) (k0_pay12 x0 x1 x2 x3 x4 mp) ap

/-- The context block: the accumulator divided by the sum. -/
def ctxOut (a : Vec F S8x512 .f32) (l : Vec F S8x1 .f32) : Vec F S8x512 .f32 := k0_pay4 a l

end Cert.KernelIdeal.Pieces

end
-- ==== Proof.Pieces.lean ====
/-
  What each control case of the kernel body leaves in its outputs and in the three scratch buffers it carries
  between grid points, as pure functions of the point's input blocks and of what the point before left.

  The body computes the tile's scores `k0_pay9`, the new running maximum `mNew`, the rescaled running sum `lNew`
  and the rescaled weighted accumulator `aNew`; at a row block's first tile the previous state is the reset
  `-∞, 0, 0` (`k0_pay5`, `k0_pay6`, `k0_pay7`), at its last tile the context block `ctxOut` is the accumulator
  divided by the sum.
-/
import proofs.«416236_j3435973837471_3_alg».proof.Proof.Gen.KernelIdeal.Frame
import proofs.«416236_j3435973837471_3_alg».proof.Proof.Steps
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets of each rank, however they are spelt. -/
private theorem hz : (![0, 0] : Fin 2 → Nat) = fun _ => 0 := funext fun a => by fin_cases a <;> rfl
private theorem hz3 : (![0, 0, 0] : Fin 3 → Nat) = fun _ => 0 := funext fun a => by fin_cases a <;> rfl
private theorem hz1 : (![0] : Fin 1 → Nat) = fun _ => 0 := funext fun a => by fin_cases a <;> rfl

/-! ## The first tile of a row block (the scratch is reset first) -/

theorem out5_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : cond0_0 i) (hc1 : ¬cond0_1 i)
    (x0 : Vec F S8x512x512 .f32) (x1 : Vec F S512x256 .f32) (x2 : Vec F S256 .f32) (x3 : Vec F S1x256 .f32) (x4 : Vec F S1 .f32) :
    out0_A_5 c i arg2 harg2 arg3 harg3 arg4 harg4 arg5 harg5 arg6 harg6 arg7 harg7 arg8 harg8 arg9 harg9 arg10 harg10 arg11 harg11 hc0 hc1 x0 x1 x2 x3 x4 = k0_pay9 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

theorem sm_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : cond0_0 i) (hc1 : ¬cond0_1 i)
    (x0 : Vec F S8x512x512 .f32) (x1 : Vec F S512x256 .f32) (x2 : Vec F S256 .f32) (x3 : Vec F S1x256 .f32) (x4 : Vec F S1 .f32) :
    sout0_A_0 c i arg2 harg2 arg3 harg3 arg4 harg4 arg5 harg5 arg6 harg6 arg7 harg7 arg8 harg8 arg9 harg9 arg10 harg10 arg11 harg11 hc0 hc1 x0 x1 x2 x3 x4 = mNew x0 x1 x2 x3 x4 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S8x1) hz]
  unfold mNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz, View.readCov_unit_zero (S := S8x512) _ hz, View.readCov_unit_zero (S := S8x1) _ hz]

theorem sl_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : cond0_0 i) (hc1 : ¬cond0_1 i)
    (x0 : Vec F S8x512x512 .f32) (x1 : Vec F S512x256 .f32) (x2 : Vec F S256 .f32) (x3 : Vec F S1x256 .f32) (x4 : Vec F S1 .f32) :
    sout0_A_1 c i arg2 harg2 arg3 harg3 arg4 harg4 arg5 harg5 arg6 harg6 arg7 harg7 arg8 harg8 arg9 harg9 arg10 harg10 arg11 harg11 hc0 hc1 x0 x1 x2 x3 x4 = lNew x0 x1 x2 x3 x4 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S8x1) hz]
  unfold lNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz, View.readCov_unit_zero (S := S8x512) _ hz, View.readCov_unit_zero (S := S8x1) _ hz]

theorem sa_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : cond0_0 i) (hc1 : ¬cond0_1 i)
    (x0 : Vec F S8x512x512 .f32) (x1 : Vec F S512x256 .f32) (x2 : Vec F S256 .f32) (x3 : Vec F S1x256 .f32) (x4 : Vec F S1 .f32) :
    sout0_A_2 c i arg2 harg2 arg3 harg3 arg4 harg4 arg5 harg5 arg6 harg6 arg7 harg7 arg8 harg8 arg9 harg9 arg10 harg10 arg11 harg11 hc0 hc1 x0 x1 x2 x3 x4 = aNew x0 x1 x2 x3 x4 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S8x512) hz]
  unfold aNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz, View.readCov_unit_zero (S := S8x512) _ hz, View.readCov_unit_zero (S := S8x1) _ hz]

/-! ## A middle tile -/

theorem out5_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : ¬cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    out0_B_5 c i arg2 harg2 arg3 harg3 arg4 harg4 arg5 harg5 arg6 harg6 arg7 harg7 arg8 harg8 arg9 harg9 arg10 harg10 arg11 harg11 hc0 hc1 x0 x1 x2 x3 x4 xs0 xs1 xs2 = k0_pay9 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

theorem sm_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : ¬cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    sout0_B_0 c i arg2 harg2 arg3 harg3 arg4 harg4 arg5 harg5 arg6 harg6 arg7 harg7 arg8 harg8 arg9 harg9 arg10 harg10 arg11 harg11 hc0 hc1 x0 x1 x2 x3 x4 xs0 xs1 xs2 = mNew x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz]
  unfold mNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

theorem sl_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : ¬cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    sout0_B_1 c i arg2 harg2 arg3 harg3 arg4 harg4 arg5 harg5 arg6 harg6 arg7 harg7 arg8 harg8 arg9 harg9 arg10 harg10 arg11 harg11 hc0 hc1 x0 x1 x2 x3 x4 xs0 xs1 xs2 = lNew x0 x1 x2 x3 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz]
  unfold lNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

theorem sa_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : ¬cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    sout0_B_2 c i arg2 harg2 arg3 harg3 arg4 harg4 arg5 harg5 arg6 harg6 arg7 harg7 arg8 harg8 arg9 harg9 arg10 harg10 arg11 harg11 hc0 hc1 x0 x1 x2 x3 x4 xs0 xs1 xs2 = aNew x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz]
  unfold aNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

/-! ## The last tile of a row block (the context block is stored) -/

theorem out5_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    out0_C_5 c i arg2 harg2 arg3 harg3 arg4 harg4 arg5 harg5 arg6 harg6 arg7 harg7 arg8 harg8 arg9 harg9 arg10 harg10 arg11 harg11 hc0 hc1 x0 x1 x2 x3 x4 xs0 xs1 xs2 = k0_pay9 x0 x1 x2 x3 x4 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

theorem out6_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    out0_C_6 c i arg2 harg2 arg3 harg3 arg4 harg4 arg5 harg5 arg6 harg6 arg7 harg7 arg8 harg8 arg9 harg9 arg10 harg10 arg11 harg11 hc0 hc1 x0 x1 x2 x3 x4 xs0 xs1 xs2 = ctxOut (aNew x0 x1 x2 x3 x4 xs0 xs2) (lNew x0 x1 x2 x3 x4 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  unfold ctxOut aNew lNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz, View.readCov_unit_zero (S := S8x512) _ hz, View.readCov_unit_zero (S := S8x1) _ hz]

theorem sm_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    sout0_C_0 c i arg2 harg2 arg3 harg3 arg4 harg4 arg5 harg5 arg6 harg6 arg7 harg7 arg8 harg8 arg9 harg9 arg10 harg10 arg11 harg11 hc0 hc1 x0 x1 x2 x3 x4 xs0 xs1 xs2 = mNew x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  unfold mNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

theorem sl_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    sout0_C_1 c i arg2 harg2 arg3 harg3 arg4 harg4 arg5 harg5 arg6 harg6 arg7 harg7 arg8 harg8 arg9 harg9 arg10 harg10 arg11 harg11 hc0 hc1 x0 x1 x2 x3 x4 xs0 xs1 xs2 = lNew x0 x1 x2 x3 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  unfold lNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

theorem sa_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S1 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x512 .f32) (harg11 : arg11.IsWhole) (hc0 : ¬cond0_0 i) (hc1 : cond0_1 i)
    (x0 : Vec F S8x512x512 .f32) (x1 : Vec F S512x256 .f32) (x2 : Vec F S256 .f32) (x3 : Vec F S1x256 .f32) (x4 : Vec F S1 .f32) (xs0 : Vec F S8x1 .f32) (xs1 : Vec F S8x1 .f32) (xs2 : Vec F S8x512 .f32) :
    sout0_C_2 c i arg2 harg2 arg3 harg3 arg4 harg4 arg5 harg5 arg6 harg6 arg7 harg7 arg8 harg8 arg9 harg9 arg10 harg10 arg11 harg11 hc0 hc1 x0 x1 x2 x3 x4 xs0 xs1 xs2 = aNew x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  unfold aNew
  simp only [View.readAt_eq_ld, harg2.read_unread, harg3.read_unread, harg4.read_unread, harg5.read_unread, harg6.read_unread, harg7.read_unread, harg8.read_unread, harg9.read_unread, harg10.read_unread, harg11.read_unread, View.ld_unit_zero (S := S8x512x512) hz3, View.ld_unit_zero (S := S512x256) hz, View.ld_unit_zero (S := S256) hz1, View.ld_unit_zero (S := S1x256) hz, View.ld_unit_zero (S := S1) hz1, View.ld_unit_zero (S := S8x512) hz, View.ld_unit_zero (S := S8x1) hz]

end Cert.KernelIdeal.Pieces

end
-- ==== Proof.PayValues.lean ====
/-
  The tile update read at an index, on the extended reals.

  For a tile's blocks (`x0` the [8, 512, 512] block of inputs, `x1` the first layer's weights, `x2` its bias,
  `x3` the second layer's weights as a row, `x4` its bias) the score of row `r`, position `k` is
  `bsc r k = (∑ d, tanh ((∑ h, x0 r k h * x1 h d) + x2 d) * x3 0 d) + x4 0`; the new maximum of row `r` is the
  previous one against the fold of `max` over the row's scores; the sums are rescaled by `exp (m - m')`.
-/
import proofs.«416236_j3435973837471_3_alg».proof.Proof.Steps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValues

open Idealize.ShloMosaic Idealize.ShloMosaic.TcCoe Idealize.ShloMosaic.ValueIdx
open Cert.KernelIdeal Cert.KernelIdeal.Gen Cert.KernelIdeal.Pieces

/-! ## Layout operations of the body read at explicit coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1]` array broadcast to `[n]` reads its one element everywhere. -/
theorem broadcastTo_1_n_apply {n : ℕ} (v : (⟨1, ![1]⟩ : Shape).Idx → α) (h : (⟨1, ![1]⟩ : Shape).Broadcasts ⟨1, ![n]⟩)
    (p : Fin n) : broadcastTo ⟨1, ![n]⟩ v h (ix1 p) = v (ix1 (0 : Fin 1)) := by
  refine broadcastTo_apply v h (ix1 p) (ix1 (0 : Fin 1)) fun ax => ?_
  match ax with
  | ⟨0, _⟩ => rfl

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A flat `[4096]` array cast to `[8, 512]` reads, at `(r, k)`, the operand at `r * 512 + k`. -/
theorem shapeCast_4096_8x512_apply (x : S4096.Idx → α) (h : S4096.ShapeCasts S8x512) (r : Fin 8) (k : Fin 512) :
    shapeCast S8x512 x h (ix2 r k) = x (ix1 (⟨r.val * 512 + k.val, by omega⟩ : Fin 4096)) :=
  shapeCast_apply x h _ _ (by
    rw [Shape.rowMajor_val_two, Shape.rowMajor_val_one]
    rfl)

/-- An `[8, 512, 512]` array cast to `[4096, 512]` reads, at `(r * 512 + k, c)`, the operand at `(r, k, c)`. -/
theorem shapeCast_8x512x512_4096x512_apply (x : S8x512x512.Idx → α) (h : S8x512x512.ShapeCasts S4096x512)
    (r : Fin 8) (k : Fin 512) (c : Fin 512) :
    shapeCast S4096x512 x h (ix2 (⟨r.val * 512 + k.val, by omega⟩ : Fin 4096) c) = x (ix3 r k c) :=
  shapeCast_apply x h _ _ (by
    rw [Shape.rowMajor_val_three, Shape.rowMajor_val_two]
    rfl)

end Layout

/-- The float pattern of `-∞` is the bottom of the extended reals. -/
theorem ofBits_neg_inf : Ideal.ofBits .f32 0xFF800000#32 = (⊥ : EReal) := by
  simp [Ideal.ofBits, Ideal.ieee]

/-! ## The lane reductions of the body read at explicit coordinates -/

/-- The lane sum of a `[4096, 256]` vector at row `n`. -/
theorem laneSum_4096x256 (v : FVec Ideal S4096x256 .f32) (h : S4096x256.Reduces [1] S4096) (hφ : FKind.Formats .f32)
    (hacc : (0x00000000#32 : BitVec 32) = FKind.add.neutral .f32 hφ) (n : Fin 4096) :
    multiReduction (F := Ideal) .add [1] S4096 v 0x00000000#32 h hφ hacc (ix1 n) = ∑ d : Fin 256, v (ix2 n d) := by
  refine (Ideal.multiReduction_add_single v _ h hφ hacc (ix1 n)).trans ?_
  show ∑ d : Fin 256, v (h.lift (ix1 n) d) = _
  refine Finset.sum_congr rfl fun d _ => congrArg v ?_
  funext a
  match a with
  | ⟨0, _⟩ => rfl
  | ⟨1, _⟩ => rfl

/-- The lane sum of an `[8, 512]` vector at row `r`. -/
theorem laneSum_8x512 (v : FVec Ideal S8x512 .f32) (h : S8x512.Reduces [1] S8) (hφ : FKind.Formats .f32)
    (hacc : (0x00000000#32 : BitVec 32) = FKind.add.neutral .f32 hφ) (r : Fin 8) :
    multiReduction (F := Ideal) .add [1] S8 v 0x00000000#32 h hφ hacc (ix1 r) = ∑ k : Fin 512, v (ix2 r k) := by
  refine (Ideal.multiReduction_add_single v _ h hφ hacc (ix1 r)).trans ?_
  show ∑ k : Fin 512, v (h.lift (ix1 r) k) = _
  refine Finset.sum_congr rfl fun k _ => congrArg v ?_
  funext a
  match a with
  | ⟨0, _⟩ => rfl
  | ⟨1, _⟩ => rfl

/-- The lane maximum of an `[8, 512]` vector at row `r`: the fold of `max` from `-∞` over the row. -/
theorem laneMax_8x512 (v : FVec Ideal S8x512 .f32) (h : S8x512.Reduces [1] S8) (hφ : FKind.Formats .f32)
    (hacc : (0xFF800000#32 : BitVec 32) = FKind.maximumf.neutral .f32 hφ) (r : Fin 8) :
    multiReduction (F := Ideal) .maximumf [1] S8 v 0xFF800000#32 h hφ hacc (ix1 r)
      = (Finset.univ : Finset (Fin 512)).fold max (⊥ : EReal) fun k => v (ix2 r k) := by
  refine (Ideal.multiReduction_maximumf_single v _ h hφ hacc (ix1 r)).trans ?_
  show (Finset.univ : Finset (Fin 512)).fold max (Ideal.ofBits .f32 0xFF800000#32) (fun k => v (h.lift (ix1 r) k)) = _
  rw [ofBits_neg_inf]
  refine congrArg (fun f : Fin 512 → EReal => (Finset.univ : Finset (Fin 512)).fold max (⊥ : EReal) f) (funext fun k => congrArg v ?_)
  funext a
  match a with
  | ⟨0, _⟩ => rfl
  | ⟨1, _⟩ => rfl

/-! ## The two matrix products of the body read at explicit coordinates -/

theorem lhs_mm1_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs_mm1_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs_mm1_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs_mm1_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- The first product, into a zero accumulator: row `n` of the left operand against column `d` of the right. -/
theorem mm1_apply (a : FVec Ideal S4096x512 .bf16) (b : FVec Ideal S512x256 .bf16) (n : Fin 4096) (d : Fin 256) :
    matmul dot_S4096x512_S512x256_S4096x256_1_0_0_1_n_n none a b (constant (F := Ideal) S4096x256 .f32 0x00000000#32) (ix2 n d)
      = ∑ h : Fin 512, a (ix2 n h) * b (ix2 h d) := by
  simp only [matmul]
  rw [Ideal.matmul_constant_zero_apply, ← Equiv.sum_comp (ValueIdx.contrEquiv1 dot_S4096x512_S512x256_S4096x256_1_0_0_1_n_n 512 rfl rfl).symm]
  refine Finset.sum_congr rfl fun k _ => ?_
  have hk := ValueIdx.contrEquiv1_symm_val dot_S4096x512_S512x256_S4096x256_1_0_0_1_n_n 512 rfl rfl k
  have el : dot_S4096x512_S512x256_S4096x256_1_0_0_1_n_n.lhsIdx (ix2 n d) ((ValueIdx.contrEquiv1 dot_S4096x512_S512x256_S4096x256_1_0_0_1_n_n 512 rfl rfl).symm k) = ix2 n k := funext fun ax => Fin.ext (by
    match ax with
    | ⟨0, _⟩ => exact lhs_mm1_0 _ _
    | ⟨1, _⟩ => exact (lhs_mm1_1 _ _).trans hk)
  have er : dot_S4096x512_S512x256_S4096x256_1_0_0_1_n_n.rhsIdx (ix2 n d) ((ValueIdx.contrEquiv1 dot_S4096x512_S512x256_S4096x256_1_0_0_1_n_n 512 rfl rfl).symm k) = ix2 k d := funext fun ax => Fin.ext (by
    match ax with
    | ⟨0, _⟩ => exact (rhs_mm1_0 _ _).trans hk
    | ⟨1, _⟩ => exact rhs_mm1_1 _ _)
  rw [el, er]

theorem lhs_mm2_0 (i : S8x1x512.Idx) (q : dot_S8x1x512_S8x512x512_S8x1x512_2_1_1_2_0_0.contr.Idx) :
    (dot_S8x1x512_S8x512x512_S8x1x512_2_1_1_2_0_0.lhsIdx i q 0).val = (i 0).val := by
  unfold DotDims.lhsIdx
  rw [dif_pos (show (0 : Fin S8x1x512.rank) ∈ dot_S8x1x512_S8x512x512_S8x1x512_2_1_1_2_0_0.lhsBatch by decide)]
  rfl
theorem lhs_mm2_1 (i : S8x1x512.Idx) (q : dot_S8x1x512_S8x512x512_S8x1x512_2_1_1_2_0_0.contr.Idx) :
    (dot_S8x1x512_S8x512x512_S8x1x512_2_1_1_2_0_0.lhsIdx i q 1).val = (i 1).val := by
  unfold DotDims.lhsIdx
  rw [dif_neg (show ¬(1 : Fin S8x1x512.rank) ∈ dot_S8x1x512_S8x512x512_S8x1x512_2_1_1_2_0_0.lhsBatch by decide), dif_pos (show (1 : Fin S8x1x512.rank) ∈ dot_S8x1x512_S8x512x512_S8x1x512_2_1_1_2_0_0.lhsNonContracting by decide)]
  rfl
theorem lhs_mm2_2 (i : S8x1x512.Idx) (q : dot_S8x1x512_S8x512x512_S8x1x512_2_1_1_2_0_0.contr.Idx) :
    (dot_S8x1x512_S8x512x512_S8x1x512_2_1_1_2_0_0.lhsIdx i q 2).val = (q ⟨0, by decide⟩).val :=
  dot_S8x1x512_S8x512x512_S8x1x512_2_1_1_2_0_0.lhsIdx_val_of_single rfl i q
theorem rhs_mm2_0 (i : S8x1x512.Idx) (q : dot_S8x1x512_S8x512x512_S8x1x512_2_1_1_2_0_0.contr.Idx) :
    (dot_S8x1x512_S8x512x512_S8x1x512_2_1_1_2_0_0.rhsIdx i q 0).val = (i 0).val := by
  unfold DotDims.rhsIdx
  rw [dif_pos (show (0 : Fin S8x512x512.rank) ∈ dot_S8x1x512_S8x512x512_S8x1x512_2_1_1_2_0_0.rhsBatch by decide)]
  rfl
theorem rhs_mm2_1 (i : S8x1x512.Idx) (q : dot_S8x1x512_S8x512x512_S8x1x512_2_1_1_2_0_0.contr.Idx) :
    (dot_S8x1x512_S8x512x512_S8x1x512_2_1_1_2_0_0.rhsIdx i q 1).val = (q ⟨0, by decide⟩).val :=
  dot_S8x1x512_S8x512x512_S8x1x512_2_1_1_2_0_0.rhsIdx_val_of_single rfl i q
theorem rhs_mm2_2 (i : S8x1x512.Idx) (q : dot_S8x1x512_S8x512x512_S8x1x512_2_1_1_2_0_0.contr.Idx) :
    (dot_S8x1x512_S8x512x512_S8x1x512_2_1_1_2_0_0.rhsIdx i q 2).val = (i 2).val := by
  unfold DotDims.rhsIdx
  rw [dif_neg (show ¬(2 : Fin S8x512x512.rank) ∈ dot_S8x1x512_S8x512x512_S8x1x512_2_1_1_2_0_0.rhsBatch by decide), dif_pos (show (2 : Fin S8x512x512.rank) ∈ dot_S8x1x512_S8x512x512_S8x1x512_2_1_1_2_0_0.rhsNonContracting by decide)]
  rfl

/-- The second product (batched over the rows), into a zero accumulator: the weights of row `r` against column `c`
    of the row's block of inputs. -/
theorem mm2_apply (p : FVec Ideal S8x1x512 .bf16) (x : FVec Ideal S8x512x512 .bf16) (r : Fin 8) (u : Fin 1) (c : Fin 512) :
    matmul dot_S8x1x512_S8x512x512_S8x1x512_2_1_1_2_0_0 none p x (constant (F := Ideal) S8x1x512 .f32 0x00000000#32) (ix3 r u c)
      = ∑ k : Fin 512, p (ix3 r u k) * x (ix3 r k c) := by
  simp only [matmul]
  rw [Ideal.matmul_constant_zero_apply, ← Equiv.sum_comp (ValueIdx.contrEquiv1 dot_S8x1x512_S8x512x512_S8x1x512_2_1_1_2_0_0 512 rfl rfl).symm]
  refine Finset.sum_congr rfl fun k _ => ?_
  have hk := ValueIdx.contrEquiv1_symm_val dot_S8x1x512_S8x512x512_S8x1x512_2_1_1_2_0_0 512 rfl rfl k
  have el : dot_S8x1x512_S8x512x512_S8x1x512_2_1_1_2_0_0.lhsIdx (ix3 r u c) ((ValueIdx.contrEquiv1 dot_S8x1x512_S8x512x512_S8x1x512_2_1_1_2_0_0 512 rfl rfl).symm k) = ix3 r u k := funext fun ax => Fin.ext (by
    match ax with
    | ⟨0, _⟩ => exact lhs_mm2_0 _ _
    | ⟨1, _⟩ => exact lhs_mm2_1 _ _
    | ⟨2, _⟩ => exact (lhs_mm2_2 _ _).trans hk)
  have er : dot_S8x1x512_S8x512x512_S8x1x512_2_1_1_2_0_0.rhsIdx (ix3 r u c) ((ValueIdx.contrEquiv1 dot_S8x1x512_S8x512x512_S8x1x512_2_1_1_2_0_0 512 rfl rfl).symm k) = ix3 r k c := funext fun ax => Fin.ext (by
    match ax with
    | ⟨0, _⟩ => exact rhs_mm2_0 _ _
    | ⟨1, _⟩ => exact (rhs_mm2_1 _ _).trans hk
    | ⟨2, _⟩ => exact rhs_mm2_2 _ _)
  rw [el, er]

/-! ## The unary operations at an index -/

theorem tanh_apply {s : Shape} {φ : FTy} (v : FVec Ideal s φ) (i : s.Idx) : tanh v i = Ideal.tanh (v i) := rfl
theorem exp_apply {s : Shape} {φ : FTy} (v : FVec Ideal s φ) (i : s.Idx) : exp v i = Ideal.exp (v i) := rfl

/-- The score of row `r`, position `k` of a tile. -/
def bsc (x0 : Vec Ideal S8x512x512 .f32) (x1 : Vec Ideal S512x256 .f32) (x2 : Vec Ideal S256 .f32) (x3 : Vec Ideal S1x256 .f32) (x4 : Vec Ideal S1 .f32) (r : Fin 8) (k : Fin 512) : EReal :=
  (∑ d : Fin 256, Ideal.tanh ((∑ h : Fin 512, x0 (ix3 r k h) * x1 (ix2 h d)) + x2 (ix1 d)) * x3 (ix2 0 d)) + x4 (ix1 0)

/-- The scores the body stores. -/
theorem pay9_apply (x0 : Vec Ideal S8x512x512 .f32) (x1 : Vec Ideal S512x256 .f32) (x2 : Vec Ideal S256 .f32) (x3 : Vec Ideal S1x256 .f32) (x4 : Vec Ideal S1 .f32) (r : Fin 8) (k : Fin 512) :
    k0_pay9 (F := Ideal) x0 x1 x2 x3 x4 (ix2 r k) = bsc x0 x1 x2 x3 x4 r k := by
  unfold k0_pay9 bsc
  refine (shapeCast_4096_8x512_apply _ _ r k).trans ?_
  rw [addf_apply, broadcastTo_1_n_apply]
  refine congrArg (· + x4 (ix1 0)) ?_
  refine (laneSum_4096x256 _ _ _ _ _).trans ?_
  refine Finset.sum_congr rfl fun d _ => ?_
  rw [mulf_apply, broadcastTo_1b_ab_apply, shapeCast_a_1a_apply, shapeCast_1a_a_apply, tanh_apply, addf_apply, mm1_apply,
    broadcastTo_1b_ab_apply, shapeCast_a_1a_apply]
  refine congrArg (fun t => Ideal.tanh (t + x2 (ix1 d)) * x3 (ix2 0 d)) (Finset.sum_congr rfl fun h _ => ?_)
  rw [shapeCast_8x512x512_4096x512_apply, truncf_apply]
  rfl

/-- The reset state: maximum `-∞`, sum `0`, accumulator `0`. -/
theorem pay5_apply (r : Fin 8) : k0_pay5 (F := Ideal) (ix2 r 0) = (⊥ : EReal) := by
  unfold k0_pay5
  rw [shapeCast_self]
  exact ofBits_neg_inf

theorem pay6_apply (r : Fin 8) : k0_pay6 (F := Ideal) (ix2 r 0) = (0 : EReal) := by
  unfold k0_pay6
  rw [shapeCast_self]
  exact Ideal.ofBits_zero_f32

theorem pay7_apply (r : Fin 8) (h : Fin 512) : k0_pay7 (F := Ideal) (ix2 r h) = (0 : EReal) := by
  unfold k0_pay7
  rw [shapeCast_self]
  exact Ideal.ofBits_zero_f32

/-! ## The payloads of the update at explicit coordinates -/

/-- The maximum the body carries: the previous one against the fold of `max` over the row's scores. -/
theorem pay10_apply (x0 : Vec Ideal S8x512x512 .f32) (x1 : Vec Ideal S512x256 .f32) (x2 : Vec Ideal S256 .f32) (x3 : Vec Ideal S1x256 .f32) (x4 : Vec Ideal S1 .f32) (mp : Vec Ideal S8x1 .f32) (r : Fin 8) :
    k0_pay10 (F := Ideal) x0 x1 x2 x3 x4 mp (ix2 r 0)
      = max (mp (ix2 r 0)) ((Finset.univ : Finset (Fin 512)).fold max ⊥ fun k => bsc x0 x1 x2 x3 x4 r k) := by
  unfold k0_pay10
  rw [maximumf_apply, shapeCast_a_a1_apply]
  refine congrArg (max (mp (ix2 r 0))) ?_
  refine (laneMax_8x512 _ _ _ _ r).trans ?_
  exact congrArg (fun f : Fin 512 → EReal => (Finset.univ : Finset (Fin 512)).fold max (⊥ : EReal) f)
    (funext fun k => pay9_apply x0 x1 x2 x3 x4 r k)

/-- The stored maximum is the carried one. -/
theorem mNew_eq (x0 : Vec Ideal S8x512x512 .f32) (x1 : Vec Ideal S512x256 .f32) (x2 : Vec Ideal S256 .f32) (x3 : Vec Ideal S1x256 .f32) (x4 : Vec Ideal S1 .f32) (mp : Vec Ideal S8x1 .f32) :
    mNew (F := Ideal) x0 x1 x2 x3 x4 mp = k0_pay10 (F := Ideal) x0 x1 x2 x3 x4 mp := by
  unfold mNew k0_pay3
  exact shapeCast_self _ _

/-- The new maximum of row `r`. -/
theorem mNew_apply (x0 : Vec Ideal S8x512x512 .f32) (x1 : Vec Ideal S512x256 .f32) (x2 : Vec Ideal S256 .f32) (x3 : Vec Ideal S1x256 .f32) (x4 : Vec Ideal S1 .f32) (mp : Vec Ideal S8x1 .f32) (r : Fin 8) :
    mNew (F := Ideal) x0 x1 x2 x3 x4 mp (ix2 r 0)
      = max (mp (ix2 r 0)) ((Finset.univ : Finset (Fin 512)).fold max ⊥ fun k => bsc x0 x1 x2 x3 x4 r k) := by
  rw [mNew_eq]
  exact pay10_apply x0 x1 x2 x3 x4 mp r

/-- The rescaling factor of row `r`. -/
theorem pay11_apply (x0 : Vec Ideal S8x512x512 .f32) (x1 : Vec Ideal S512x256 .f32) (x2 : Vec Ideal S256 .f32) (x3 : Vec Ideal S1x256 .f32) (x4 : Vec Ideal S1 .f32) (mp : Vec Ideal S8x1 .f32) (r : Fin 8) :
    k0_pay11 (F := Ideal) x0 x1 x2 x3 x4 mp (ix2 r 0)
      = Ideal.exp (mp (ix2 r 0) - mNew (F := Ideal) x0 x1 x2 x3 x4 mp (ix2 r 0)) := by
  rw [mNew_eq]
  unfold k0_pay11
  rw [exp_apply, subf_apply]

/-- The weight of position `k` of row `r`. -/
theorem pay12_apply (x0 : Vec Ideal S8x512x512 .f32) (x1 : Vec Ideal S512x256 .f32) (x2 : Vec Ideal S256 .f32) (x3 : Vec Ideal S1x256 .f32) (x4 : Vec Ideal S1 .f32) (mp : Vec Ideal S8x1 .f32) (r : Fin 8) (k : Fin 512) :
    k0_pay12 (F := Ideal) x0 x1 x2 x3 x4 mp (ix2 r k)
      = Ideal.exp (bsc x0 x1 x2 x3 x4 r k - mNew (F := Ideal) x0 x1 x2 x3 x4 mp (ix2 r 0)) := by
  rw [mNew_eq]
  unfold k0_pay12
  rw [exp_apply, subf_apply, broadcastTo_a1_ab_apply, pay9_apply]

/-- The rescaled previous sum of row `r`. -/
theorem pay13_apply (x0 : Vec Ideal S8x512x512 .f32) (x1 : Vec Ideal S512x256 .f32) (x2 : Vec Ideal S256 .f32) (x3 : Vec Ideal S1x256 .f32) (x4 : Vec Ideal S1 .f32) (mp lp : Vec Ideal S8x1 .f32) (r : Fin 8) :
    k0_pay13 (F := Ideal) x0 x1 x2 x3 x4 mp lp (ix2 r 0)
      = Ideal.exp (mp (ix2 r 0) - mNew (F := Ideal) x0 x1 x2 x3 x4 mp (ix2 r 0)) * lp (ix2 r 0) := by
  unfold k0_pay13
  rw [mulf_apply, pay11_apply]

/-- The stored sum: the rescaled previous sum plus the lane sum of the weights. -/
theorem pay1_apply (v33 : FVec Ideal S8x512 .f32) (v35 : FVec Ideal S8x1 .f32) (r : Fin 8) :
    k0_pay1 (F := Ideal) v33 v35 (ix2 r 0) = v35 (ix2 r 0) + ∑ k : Fin 512, v33 (ix2 r k) := by
  unfold k0_pay1
  rw [shapeCast_self, addf_apply, shapeCast_a_a1_apply]
  exact congrArg (v35 (ix2 r 0) + ·) (laneSum_8x512 _ _ _ _ r)

/-- The stored accumulator: the rescaled previous one plus the weights against the block of inputs. -/
theorem pay2_apply (v4 : FVec Ideal S8x512x512 .bf16) (v30 : FVec Ideal S8x1 .f32) (v33 : FVec Ideal S8x512 .f32)
    (v46 : Vec Ideal S8x512 .f32) (r : Fin 8) (h : Fin 512) :
    k0_pay2 (F := Ideal) v4 v30 v33 v46 (ix2 r h)
      = v30 (ix2 r 0) * v46 (ix2 r h) + ∑ k : Fin 512, v33 (ix2 r k) * v4 (ix3 r k h) := by
  unfold k0_pay2
  rw [shapeCast_self, addf_apply, mulf_apply, broadcastTo_a1_ab_apply, shapeCast_a1b_ab_apply, mm2_apply]
  refine congrArg (v30 (ix2 r 0) * v46 (ix2 r h) + ·) (Finset.sum_congr rfl fun k _ => ?_)
  rw [shapeCast_ab_a1b_apply, truncf_apply]

/-- The new sum of row `r`. -/
theorem lNew_apply (x0 : Vec Ideal S8x512x512 .f32) (x1 : Vec Ideal S512x256 .f32) (x2 : Vec Ideal S256 .f32) (x3 : Vec Ideal S1x256 .f32) (x4 : Vec Ideal S1 .f32) (mp lp : Vec Ideal S8x1 .f32) (r : Fin 8) :
    lNew (F := Ideal) x0 x1 x2 x3 x4 mp lp (ix2 r 0)
      = Ideal.exp (mp (ix2 r 0) - mNew (F := Ideal) x0 x1 x2 x3 x4 mp (ix2 r 0)) * lp (ix2 r 0)
        + ∑ k : Fin 512, Ideal.exp (bsc x0 x1 x2 x3 x4 r k - mNew (F := Ideal) x0 x1 x2 x3 x4 mp (ix2 r 0)) := by
  unfold lNew
  rw [pay1_apply, pay13_apply]
  exact congrArg (_ + ·) (Finset.sum_congr rfl fun k _ => pay12_apply x0 x1 x2 x3 x4 mp r k)

/-- The new accumulator at row `r`, column `h`. -/
theorem aNew_apply (x0 : Vec Ideal S8x512x512 .f32) (x1 : Vec Ideal S512x256 .f32) (x2 : Vec Ideal S256 .f32) (x3 : Vec Ideal S1x256 .f32) (x4 : Vec Ideal S1 .f32) (mp : Vec Ideal S8x1 .f32) (ap : Vec Ideal S8x512 .f32) (r : Fin 8) (h : Fin 512) :
    aNew (F := Ideal) x0 x1 x2 x3 x4 mp ap (ix2 r h)
      = Ideal.exp (mp (ix2 r 0) - mNew (F := Ideal) x0 x1 x2 x3 x4 mp (ix2 r 0)) * ap (ix2 r h)
        + ∑ k : Fin 512, Ideal.exp (bsc x0 x1 x2 x3 x4 r k - mNew (F := Ideal) x0 x1 x2 x3 x4 mp (ix2 r 0)) * x0 (ix3 r k h) := by
  unfold aNew
  rw [pay2_apply, pay11_apply]
  refine congrArg (_ + ·) (Finset.sum_congr rfl fun k _ => ?_)
  rw [pay12_apply]
  rfl

/-- The context block at row `r`, column `h`. -/
theorem ctxOut_apply (a : Vec Ideal S8x512 .f32) (l : Vec Ideal S8x1 .f32) (r : Fin 8) (h : Fin 512) :
    ctxOut (F := Ideal) a l (ix2 r h) = Ideal.div (a (ix2 r h)) (l (ix2 r 0)) := by
  unfold ctxOut k0_pay4
  rw [divf_apply, broadcastTo_a1_ab_apply]

end Cert.KernelIdeal.PayValues

end
-- ==== Proof.InvScores.lean ====
/-
  The scores a grid point stores: at every point, whichever control case it falls in, the scores block holds the
  scores of the block's rows at the tile's positions, because the tile's blocks are the argument arrays read at
  the block's rows and the tile's positions.
-/
import proofs.«416236_j3435973837471_3_alg».proof.Proof.Blocks
import proofs.«416236_j3435973837471_3_alg».proof.Proof.Pieces
import proofs.«416236_j3435973837471_3_alg».proof.Proof.PayValues

noncomputable section

namespace Cert.KernelIdeal.Inv

open Idealize.ShloMosaic Idealize.ShloMosaic.TcCoe Idealize.SL.Sem Idealize.ShloMosaic.ValueIdx
open Cert.KernelIdeal Cert.KernelIdeal.Gen Cert.KernelIdeal.Pieces Cert.KernelIdeal.PayValues Cert.KernelIdeal.Blocks Cert.Spec

variable (m : (ℓ : Loc nD τ sig) → Buf (Elt Ideal) ℓ)

/-- A tile's score of row `r`, position `k` is the batch row's score at the tile's position. -/
theorem bsc_eq (c : Dev nD) (t : Fin cfg0.N) (r : Fin 8) (k : Fin 512) :
    bsc (xb m c t) (w1b m c t) (b1b m c t) (w2b m c t) (b2b m c t) r k = SC m c (brow t r) (tIdx (t.val % 8) k) := by
  unfold bsc SC score
  simp only [xb_apply, w1b_apply, b1b_apply, w2b_apply, b2b_apply]

/-- The scores block after point `t`. -/
theorem scores_apply (c : Dev nD) (t : Fin cfg0.N) (r : Fin 8) (k : Fin 512) :
    (outsAt0 m c t.val t.isLt).1 (ix2 r k) = SC m c (brow t r) (tIdx (t.val % 8) k) := by
  by_cases h0 : t.val % 8 = 0
  · have h1 : ¬t.val % 8 = 7 := by omega
    rw [outsAt0_A m c t h0 h1]
    dsimp only
    refine (congrFun (out5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (xb m c t) (w1b m c t) (b1b m c t) (w2b m c t) (b2b m c t)) (ix2 r k)).trans ?_
    exact (pay9_apply (xb m c t) (w1b m c t) (b1b m c t) (w2b m c t) (b2b m c t) r k).trans (bsc_eq m c t r k)
  · by_cases h1 : t.val % 8 = 7
    · rw [outsAt0_C m c t h0 h1]
      dsimp only
      refine (congrFun (out5_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r k)).trans ?_
      exact (pay9_apply (xb m c t) (w1b m c t) (b1b m c t) (w2b m c t) (b2b m c t) r k).trans (bsc_eq m c t r k)
    · rw [outsAt0_B m c t h0 h1]
      dsimp only
      refine (congrFun (out5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r k)).trans ?_
      exact (pay9_apply (xb m c t) (w1b m c t) (b1b m c t) (w2b m c t) (b2b m c t) r k).trans (bsc_eq m c t r k)

end Cert.KernelIdeal.Inv

end
-- ==== Proof.Invariant.lean ====
/-
  What the kernel's staging buffers hold after each grid point, read at an index.

  After point `t` (row block `t / 8`, tile `t % 8`) the scores block holds the scores of the block's rows at the tile's
  positions; the three carried buffers hold, for each row, the running maximum, the running sum of exponentials and
  the running weighted sums after `t % 8 + 1` tiles; at a row block's last tile the context block holds the accumulated
  context of each row and column.
-/
import proofs.«416236_j3435973837471_3_alg».proof.Proof.InvScores

noncomputable section

namespace Cert.KernelIdeal.Inv

open Idealize.ShloMosaic Idealize.ShloMosaic.TcCoe Idealize.SL.Sem Idealize.ShloMosaic.ValueIdx
open Cert.KernelIdeal Cert.KernelIdeal.Gen Cert.KernelIdeal.Pieces Cert.KernelIdeal.PayValues Cert.KernelIdeal.Blocks Cert.Spec

variable (m : (ℓ : Loc nD τ sig) → Buf (Elt Ideal) ℓ)

/-! ## One tile's update against the online state -/

/-- The new maximum continues the running maximum. -/
theorem step_m (x0 : Vec Ideal S8x512x512 .f32) (x1 : Vec Ideal S512x256 .f32) (x2 : Vec Ideal S256 .f32)
    (x3 : Vec Ideal S1x256 .f32) (x4 : Vec Ideal S1 .f32) (mp : Vec Ideal S8x1 .f32) (sc : Fin 4096 → EReal) (j : ℕ)
    (r : Fin 8) (hsc : ∀ k : Fin 512, bsc x0 x1 x2 x3 x4 r k = sc (tIdx j k)) (hm : mp (ix2 r 0) = onM sc j) :
    mNew (F := Ideal) x0 x1 x2 x3 x4 mp (ix2 r 0) = onM sc (j + 1) := by
  rw [mNew_apply, hm, show (fun k => bsc x0 x1 x2 x3 x4 r k) = fun k => sc (tIdx j k) from funext hsc]
  rfl

/-- The new sum continues the running sum. -/
theorem step_l (x0 : Vec Ideal S8x512x512 .f32) (x1 : Vec Ideal S512x256 .f32) (x2 : Vec Ideal S256 .f32)
    (x3 : Vec Ideal S1x256 .f32) (x4 : Vec Ideal S1 .f32) (mp lp : Vec Ideal S8x1 .f32) (sc : Fin 4096 → EReal) (j : ℕ)
    (r : Fin 8) (hsc : ∀ k : Fin 512, bsc x0 x1 x2 x3 x4 r k = sc (tIdx j k)) (hm : mp (ix2 r 0) = onM sc j)
    (hl : lp (ix2 r 0) = onL sc j) :
    lNew (F := Ideal) x0 x1 x2 x3 x4 mp lp (ix2 r 0) = onL sc (j + 1) := by
  rw [lNew_apply, step_m x0 x1 x2 x3 x4 mp sc j r hsc hm, hm, hl,
    show (fun k => Ideal.exp (bsc x0 x1 x2 x3 x4 r k - onM sc (j + 1))) = fun k => Ideal.exp (sc (tIdx j k) - onM sc (j + 1))
      from funext fun k => by rw [hsc k]]
  rfl

/-- The new accumulator continues the running weighted sum. -/
theorem step_a (x0 : Vec Ideal S8x512x512 .f32) (x1 : Vec Ideal S512x256 .f32) (x2 : Vec Ideal S256 .f32)
    (x3 : Vec Ideal S1x256 .f32) (x4 : Vec Ideal S1 .f32) (mp : Vec Ideal S8x1 .f32) (ap : Vec Ideal S8x512 .f32)
    (sc xs : Fin 4096 → EReal) (j : ℕ) (r : Fin 8) (h : Fin 512)
    (hsc : ∀ k : Fin 512, bsc x0 x1 x2 x3 x4 r k = sc (tIdx j k)) (hx : ∀ k : Fin 512, x0 (ix3 r k h) = xs (tIdx j k))
    (hm : mp (ix2 r 0) = onM sc j) (ha : ap (ix2 r h) = onA sc xs j) :
    aNew (F := Ideal) x0 x1 x2 x3 x4 mp ap (ix2 r h) = onA sc xs (j + 1) := by
  rw [aNew_apply, step_m x0 x1 x2 x3 x4 mp sc j r hsc hm, hm, ha,
    show (fun k => Ideal.exp (bsc x0 x1 x2 x3 x4 r k - onM sc (j + 1)) * x0 (ix3 r k h))
        = fun k => Ideal.exp (sc (tIdx j k) - onM sc (j + 1)) * xs (tIdx j k)
      from funext fun k => by rw [hsc k, hx k]]
  rfl

/-! ## The carried buffers after a point, as the tile update of the point's blocks -/

/-- At a row block's first tile the update starts from the reset state. -/
theorem carried_first (c : Dev nD) (t : Fin cfg0.N) (h0 : t.val % 8 = 0) :
    (outsAt0 m c t.val t.isLt).2.2.1 = mNew (F := Ideal) (xb m c t) (w1b m c t) (b1b m c t) (w2b m c t) (b2b m c t) (k0_pay5 (F := Ideal))
    ∧ (outsAt0 m c t.val t.isLt).2.2.2.1 = lNew (F := Ideal) (xb m c t) (w1b m c t) (b1b m c t) (w2b m c t) (b2b m c t) (k0_pay5 (F := Ideal)) (k0_pay6 (F := Ideal))
    ∧ (outsAt0 m c t.val t.isLt).2.2.2.2 = aNew (F := Ideal) (xb m c t) (w1b m c t) (b1b m c t) (w2b m c t) (b2b m c t) (k0_pay5 (F := Ideal)) (k0_pay7 (F := Ideal)) := by
  have h1 : ¬t.val % 8 = 7 := by omega
  rw [outsAt0_A m c t h0 h1]
  dsimp only
  exact ⟨sm_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (xb m c t) (w1b m c t) (b1b m c t) (w2b m c t) (b2b m c t),
    sl_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (xb m c t) (w1b m c t) (b1b m c t) (w2b m c t) (b2b m c t),
    sa_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (xb m c t) (w1b m c t) (b1b m c t) (w2b m c t) (b2b m c t)⟩

/-- At a later tile the update starts from what the point before left. -/
theorem carried_next (c : Dev nD) (t : Fin cfg0.N) (h0 : ¬t.val % 8 = 0) :
    (outsAt0 m c t.val t.isLt).2.2.1 = mNew (F := Ideal) (xb m c t) (w1b m c t) (b1b m c t) (w2b m c t) (b2b m c t) (outsAt0 m c (t.val - 1) (Nat.lt_of_le_of_lt (Nat.sub_le _ _) t.isLt)).2.2.1
    ∧ (outsAt0 m c t.val t.isLt).2.2.2.1 = lNew (F := Ideal) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1
    ∧ (outsAt0 m c t.val t.isLt).2.2.2.2 = aNew (F := Ideal) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.2 := by
  by_cases h1 : t.val % 8 = 7
  · rw [outsAt0_C m c t h0 h1]
    dsimp only
    exact ⟨sm_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sl_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sa_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2⟩
  · rw [outsAt0_B m c t h0 h1]
    dsimp only
    exact ⟨sm_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sl_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
      sa_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2⟩

/-- At a row block's last tile the context block is the new accumulator divided by the new sum. -/
theorem ctx_last (c : Dev nD) (t : Fin cfg0.N) (h1 : t.val % 8 = 7) :
    (outsAt0 m c t.val t.isLt).2.1 = ctxOut (F := Ideal) (aNew (F := Ideal) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.2)
      (lNew (F := Ideal) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  have h0 : ¬t.val % 8 = 0 := by omega
  rw [outsAt0_C m c t h0 h1]
  dsimp only
  exact out6_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (xb m c t) (w1b m c t) (b1b m c t) (w2b m c t) (b2b m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The carried buffers hold the online state -/

/-- After point `n` the carried buffers hold, row by row, the online state after `n % 8 + 1` tiles of the row block. -/
theorem state_eq (c : Dev nD) (n : ℕ) : ∀ (hn : n < cfg0.N) (r : Fin 8),
    (outsAt0 m c n hn).2.2.1 (ix2 r 0) = onM (SC m c (brow ⟨n, hn⟩ r)) (n % 8 + 1)
    ∧ (outsAt0 m c n hn).2.2.2.1 (ix2 r 0) = onL (SC m c (brow ⟨n, hn⟩ r)) (n % 8 + 1)
    ∧ ∀ h : Fin 512, (outsAt0 m c n hn).2.2.2.2 (ix2 r h)
        = onA (SC m c (brow ⟨n, hn⟩ r)) (XC m c (brow ⟨n, hn⟩ r) h) (n % 8 + 1) := by
  induction n using Nat.strong_induction_on with
  | _ n ih =>
    intro hn r
    have hN : n < 64 := lt_of_lt_of_eq hn N64
    have hsc : ∀ k : Fin 512, bsc (xb m c ⟨n, hn⟩) (w1b m c ⟨n, hn⟩) (b1b m c ⟨n, hn⟩) (w2b m c ⟨n, hn⟩) (b2b m c ⟨n, hn⟩) r k
        = SC m c (brow ⟨n, hn⟩ r) (tIdx (n % 8) k) := fun k => bsc_eq m c ⟨n, hn⟩ r k
    have hx : ∀ (h k : Fin 512), xb m c ⟨n, hn⟩ (ix3 r k h) = XC m c (brow ⟨n, hn⟩ r) h (tIdx (n % 8) k) :=
      fun h k => xb_apply m c ⟨n, hn⟩ r k h
    by_cases h0 : n % 8 = 0
    · obtain ⟨em, el, ea⟩ := carried_first m c ⟨n, hn⟩ h0
      have hm : k0_pay5 (F := Ideal) (ix2 r 0) = onM (SC m c (brow ⟨n, hn⟩ r)) (n % 8) := by
        rw [h0]; exact pay5_apply r
      have hl : k0_pay6 (F := Ideal) (ix2 r 0) = onL (SC m c (brow ⟨n, hn⟩ r)) (n % 8) := by
        rw [h0]; exact pay6_apply r
      have ha : ∀ h : Fin 512, k0_pay7 (F := Ideal) (ix2 r h)
          = onA (SC m c (brow ⟨n, hn⟩ r)) (XC m c (brow ⟨n, hn⟩ r) h) (n % 8) := fun h => by
        rw [h0]; exact pay7_apply r h
      exact ⟨(congrFun em (ix2 r 0)).trans (step_m _ _ _ _ _ _ _ (n % 8) r hsc hm),
        (congrFun el (ix2 r 0)).trans (step_l _ _ _ _ _ _ _ _ (n % 8) r hsc hm hl),
        fun h => (congrFun ea (ix2 r h)).trans (step_a _ _ _ _ _ _ _ _ _ (n % 8) r h hsc (hx h) hm (ha h))⟩
    · obtain ⟨em, el, ea⟩ := carried_next m c ⟨n, hn⟩ h0
      have hp : n - 1 < cfg0.N := Nat.lt_of_le_of_lt (Nat.sub_le _ _) hn
      have hb : brow ⟨n - 1, hp⟩ r = brow ⟨n, hn⟩ r :=
        Fin.ext (by show 8 * ((n - 1) / 8) + r.val = 8 * (n / 8) + r.val; omega)
      have hk : (n - 1) % 8 + 1 = n % 8 := by omega
      obtain ⟨im, il, ia⟩ := ih (n - 1) (by omega) hp r
      rw [hb, hk] at im il ia
      exact ⟨(congrFun em (ix2 r 0)).trans (step_m _ _ _ _ _ _ _ (n % 8) r hsc im),
        (congrFun el (ix2 r 0)).trans (step_l _ _ _ _ _ _ _ _ (n % 8) r hsc im il),
        fun h => (congrFun ea (ix2 r h)).trans (step_a _ _ _ _ _ _ _ _ _ (n % 8) r h hsc (hx h) im (ia h))⟩

/-- The context block after the last tile of a row block. -/
theorem ctx_apply (c : Dev nD) (t : Fin cfg0.N) (h7 : t.val % 8 = 7) (r : Fin 8) (h : Fin 512) :
    (outsAt0 m c t.val t.isLt).2.1 (ix2 r h) = ctxOnline (SC m c (brow t r)) (XC m c (brow t r) h) := by
  have h0 : ¬t.val % 8 = 0 := by omega
  obtain ⟨-, el, ea⟩ := carried_next m c t h0
  obtain ⟨-, il, ia⟩ := state_eq m c t.val t.isLt r
  have e8 : t.val % 8 + 1 = 8 := by omega
  rw [e8] at il ia
  rw [congrFun (ctx_last m c t h7) (ix2 r h), ctxOut_apply, ← congrFun ea (ix2 r h), ← congrFun el (ix2 r 0), ia h, il]
  rfl

end Cert.KernelIdeal.Inv

end
-- ==== Proof.FinalArrays.lean ====
/-
  The two arrays the region leaves: the scores array holds every batch row's scores, the context array every batch
  row's accumulated context. Every point writes its scores block back, and the blocks tile the [64, 4096] array; the
  last tile of each row block writes its context block back, and those eight blocks tile the [64, 512] array.
-/
import proofs.«416236_j3435973837471_3_alg».proof.Proof.Invariant
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Inv Cert.Spec

variable (m : (ℓ : Loc nD τ sig) → Buf (Elt Ideal) ℓ)

/-- The scores of every batch row, as an array. -/
def scoresArr (c : Dev nD) : Vec Ideal S64x4096 .f32 :=
  fun i => SC m c ⟨(i 0).val, idx2_lt0 i⟩ ⟨(i 1).val, idx2_lt1 i⟩

/-- The accumulated context of every batch row and column, as an array. -/
def ctxArr (c : Dev nD) : Vec Ideal S64x512 .f32 :=
  fun i => ctxOnline (SC m c ⟨(i 0).val, idx2_lt0 i⟩) (XC m c ⟨(i 0).val, idx2_lt0 i⟩ ⟨(i 1).val, idx2_lt1 i⟩)

/-- The scores array at an index whose coordinates are a batch row and a position. -/
theorem scoresArr_apply (c : Dev nD) (i : S64x4096.Idx) (b : Fin 64) (s : Fin 4096) (hb : (i 0).val = b.val)
    (hs : (i 1).val = s.val) : scoresArr m c i = SC m c b s := by
  have e0 : (⟨(i 0).val, idx2_lt0 i⟩ : Fin 64) = b := Fin.ext hb
  have e1 : (⟨(i 1).val, idx2_lt1 i⟩ : Fin 4096) = s := Fin.ext hs
  unfold scoresArr
  rw [e0, e1]

/-- The context array at an index whose coordinates are a batch row and a column. -/
theorem ctxArr_apply (c : Dev nD) (i : S64x512.Idx) (b : Fin 64) (h : Fin 512) (hb : (i 0).val = b.val)
    (hh : (i 1).val = h.val) : ctxArr m c i = ctxOnline (SC m c b) (XC m c b h) := by
  have e0 : (⟨(i 0).val, idx2_lt0 i⟩ : Fin 64) = b := Fin.ext hb
  have e1 : (⟨(i 1).val, idx2_lt1 i⟩ : Fin 512) = h := Fin.ext hh
  unfold ctxArr
  rw [e0, e1]

/-- What point `t` writes back to the scores array is its block of `scoresArr`: rows `8 (t / 8) + r`, positions
    `512 (t % 8) + k`. -/
theorem flushed5_eq (c : Dev nD) (t : Fin cfg0.N) :
    (dats m 0 c).flushed 5 t = ((cfg0.win 5).blk t).view.read (Elt Ideal) (scoresArr m c) := by
  show (cfg0.win 5).cut (grid0.coords t) ((dats m 0 c).after 5 t) = _
  rw [after0_5]
  funext j
  obtain ⟨r, k, rfl⟩ : ∃ (r : Fin 8) (k : Fin 512), j = ix2 r k := ⟨j 0, j 1, eq_ix2 j⟩
  rw [View.read_apply]
  show (outsAt0 m c t.val t.isLt).1 (ix2 r k) = scoresArr m c (((cfg0.win 5).blk t).view.emb (ix2 r k))
  rw [scores_apply]
  have hN : t.val < 64 := lt_of_lt_of_eq t.isLt N64
  obtain ⟨-, -, -, -, -, -, -, -, -, e0, e1, -⟩ := idx_facts t
  symm
  refine scoresArr_apply m c _ _ _ ?_ ?_
  · show win0_5.index t (0 : Fin 2) * 8 + 1 * r.val = 8 * (t.val / 8) + r.val
    rw [e0]; omega
  · show win0_5.index t (1 : Fin 2) * 512 + 1 * k.val = (tIdx (t.val % 8) k).val
    rw [tIdx_val (by omega), e1]; omega

/-- What a last tile's point `t` writes back to the context array is its block of `ctxArr`: rows `8 (t / 8) + r`,
    every column. -/
theorem flushed6_eq (c : Dev nD) (t : Fin cfg0.N) (hf : (cfg0.win 6).flush t = true) :
    (dats m 0 c).flushed 6 t = ((cfg0.win 6).blk t).view.read (Elt Ideal) (ctxArr m c) := by
  have h7 : t.val % 8 = 7 := (flush0_6 t).mp hf
  show (cfg0.win 6).cut (grid0.coords t) ((dats m 0 c).after 6 t) = _
  rw [after0_6]
  funext j
  obtain ⟨r, h, rfl⟩ : ∃ (r : Fin 8) (h : Fin 512), j = ix2 r h := ⟨j 0, j 1, eq_ix2 j⟩
  rw [View.read_apply]
  show (outsAt0 m c t.val t.isLt).2.1 (ix2 r h) = ctxArr m c (((cfg0.win 6).blk t).view.emb (ix2 r h))
  rw [ctx_apply m c t h7]
  obtain ⟨-, -, -, -, -, -, -, -, -, -, -, e0, e1⟩ := idx_facts t
  symm
  refine ctxArr_apply m c _ _ _ ?_ ?_
  · show win0_6.index t (0 : Fin 2) * 8 + 1 * r.val = 8 * (t.val / 8) + r.val
    rw [e0]; omega
  · show win0_6.index t (1 : Fin 2) * 512 + 1 * h.val = h.val
    rw [e1]; omega

/-- An index of the scores array is in point `t`'s block iff each coordinate is in the block's range on its axis. -/
theorem mem_blk5 (t : Fin cfg0.N) (i : S64x4096.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v1_0).slice (win0_5.rect t)).set ↔ _
  rw [View.set_slice_whole, Rect.mem_set_unit]
  exact Iff.rfl

/-- An index of the context array is in point `t`'s block iff each coordinate is in the block's range on its axis. -/
theorem mem_blk6 (t : Fin cfg0.N) (i : S64x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v1_1).slice (win0_6.rect t)).set ↔ _
  rw [View.set_slice_whole, Rect.mem_set_unit]
  exact Iff.rfl

/-- The scores array after the run. -/
theorem final5 (c : Dev nD) : (dats m 0 c).arrAt 5 cfg0.N = scoresArr m c := by
  refine (dats m 0 c).arrAt_eq_of_cover 5 (scoresArr m c) (fun t _ => flushed5_eq m c t) fun i => ?_
  have hi0 : (i 0).val < 64 := idx2_lt0 i
  have hi1 : (i 1).val < 4096 := idx2_lt1 i
  have hlt : 8 * ((i 0).val / 8) + (i 1).val / 512 < cfg0.N := by rw [N64]; omega
  refine ⟨⟨8 * ((i 0).val / 8) + (i 1).val / 512, hlt⟩, flush0_5 _, ?_⟩
  rw [mem_blk5]
  obtain ⟨-, -, -, -, -, -, -, -, -, e0, e1, -⟩ := idx_facts ⟨8 * ((i 0).val / 8) + (i 1).val / 512, hlt⟩
  intro a
  match a with
  | ⟨0, _⟩ =>
    show win0_5.index _ (0 : Fin 2) * 8 ≤ (i 0).val ∧ (i 0).val < win0_5.index _ (0 : Fin 2) * 8 + 8
    rw [e0]
    show (8 * ((i 0).val / 8) + (i 1).val / 512) / 8 * 8 ≤ (i 0).val
      ∧ (i 0).val < (8 * ((i 0).val / 8) + (i 1).val / 512) / 8 * 8 + 8
    omega
  | ⟨1, _⟩ =>
    show win0_5.index _ (1 : Fin 2) * 512 ≤ (i 1).val ∧ (i 1).val < win0_5.index _ (1 : Fin 2) * 512 + 512
    rw [e1]
    show (8 * ((i 0).val / 8) + (i 1).val / 512) % 8 * 512 ≤ (i 1).val
      ∧ (i 1).val < (8 * ((i 0).val / 8) + (i 1).val / 512) % 8 * 512 + 512
    omega

/-- The context array after the run. -/
theorem final6 (c : Dev nD) : (dats m 0 c).arrAt 6 cfg0.N = ctxArr m c := by
  refine (dats m 0 c).arrAt_eq_of_cover 6 (ctxArr m c) (fun t hf => flushed6_eq m c t hf) fun i => ?_
  have hi0 : (i 0).val < 64 := idx2_lt0 i
  have hi1 : (i 1).val < 512 := idx2_lt1 i
  have hlt : 8 * ((i 0).val / 8) + 7 < cfg0.N := by rw [N64]; omega
  refine ⟨⟨8 * ((i 0).val / 8) + 7, hlt⟩, (flush0_6 _).mpr (by show (8 * ((i 0).val / 8) + 7) % 8 = 7; omega), ?_⟩
  rw [mem_blk6]
  obtain ⟨-, -, -, -, -, -, -, -, -, -, -, e0, e1⟩ := idx_facts ⟨8 * ((i 0).val / 8) + 7, hlt⟩
  intro a
  match a with
  | ⟨0, _⟩ =>
    show win0_6.index _ (0 : Fin 2) * 8 ≤ (i 0).val ∧ (i 0).val < win0_6.index _ (0 : Fin 2) * 8 + 8
    rw [e0]
    show (8 * ((i 0).val / 8) + 7) / 8 * 8 ≤ (i 0).val ∧ (i 0).val < (8 * ((i 0).val / 8) + 7) / 8 * 8 + 8
    omega
  | ⟨1, _⟩ =>
    show win0_6.index _ (1 : Fin 2) * 512 ≤ (i 1).val ∧ (i 1).val < win0_6.index _ (1 : Fin 2) * 512 + 512
    rw [e1]
    omega

end Cert.KernelIdeal.Final

end
-- ==== Proof.Tail.lean ====
/-
  The host operations after the region, as one function of the scores array: the softmax over the positions of each
  batch row (maximum from `-∞`, subtract, exponentiate, sum from zero, divide), with a trailing unit axis.
-/
import proofs.«416236_j3435973837471_3_alg».proof.KernelIdeal
import proofs.«416236_j3435973837471_3_alg».proof.Proof.Gen.KernelIdeal
import proofs.«416236_j3435973837471_3_alg».proof.Proof.Spec
import Idealize.ShloMosaic.Lib.Pipeline.Value
import Idealize.ShloMosaic.Lib.ValueIdx
import Idealize.ShloMosaic.PureOps.Ideal.Laws

noncomputable section

namespace Cert.KernelIdeal.Tail

open Idealize.ShloMosaic Idealize.ShloMosaic.TcCoe Idealize.ShloMosaic.ValueIdx
open Cert.KernelIdeal Cert.KernelIdeal.Gen

variable {F : FTy → Type} [FloatOps F]

/-- The softmax over positions the host applies to the scores array, operation by operation. -/
def tail (S : (⟨S64x4096, .f32⟩ : BufTy).Contents (Elt F)) : (⟨S64x4096x1, .f32⟩ : BufTy).Contents (Elt F) :=
  let v2 : (⟨S64, .f32⟩ : BufTy).Contents (Elt F) :=
    Host.reduce FloatOps.maximumf S (constant (F := F) S_ .f32 0xFF800000#32) Facts₀.reducesTo_S64x4096_S64_d1 Facts₀.h_S_
  let v3 : (⟨S64, .f32⟩ : BufTy).Contents (Elt F) :=
    broadcastInDim S64 ![] Facts₀.bcast_S_S64 (constant (F := F) S_ .f32 0xFF800000#32)
  let v4 : (⟨S64, .f32⟩ : BufTy).Contents (Elt F) := maximumf v3 v2
  let v5 : (⟨S64x1, .f32⟩ : BufTy).Contents (Elt F) := broadcastInDim S64x1 ![0] Facts₀.bcast_S64_S64x1_0 v4
  let v6 : (⟨S64x4096, .f32⟩ : BufTy).Contents (Elt F) := broadcastInDim S64x4096 ![0, 1] Facts₀.bcast_S64x1_S64x4096_0_1 v5
  let v7 : (⟨S64x4096, .f32⟩ : BufTy).Contents (Elt F) := subf S v6
  let v8 : (⟨S64x4096, .f32⟩ : BufTy).Contents (Elt F) := Host.exp v7
  let v9 : (⟨S64, .f32⟩ : BufTy).Contents (Elt F) :=
    Host.reduceAdd v8 (constant (F := F) S_ .f32 0x00000000#32) Facts₀.reducesTo_S64x4096_S64_d1 Facts₀.h_S_
  let v10 : (⟨S64x1, .f32⟩ : BufTy).Contents (Elt F) := broadcastInDim S64x1 ![0] Facts₀.bcast_S64_S64x1_0 v9
  let v11 : (⟨S64x4096, .f32⟩ : BufTy).Contents (Elt F) := broadcastInDim S64x4096 ![0, 1] Facts₀.bcast_S64x1_S64x4096_0_1 v10
  let v12 : (⟨S64x4096, .f32⟩ : BufTy).Contents (Elt F) := Host.divf v8 v11
  broadcastInDim S64x4096x1 ![0, 1] Facts₀.bcast_S64x4096_S64x4096x1_0_1 v12

/-- The bit pattern of negative infinity denotes the least extended real. -/
theorem negInf_eq_bot : Ideal.ofBits .f32 0xFF800000#32 = (⊥ : EReal) := by
  simp [Ideal.ofBits, Ideal.ieee]

/-- A scalar broadcast to the 64 rows reads the scalar. -/
theorem bc_scalar (y : (⟨S_, .f32⟩ : BufTy).Contents (Elt Ideal)) (b : Fin 64) :
    broadcastInDim S64 ![] Facts₀.bcast_S_S64 y (ix1 b) = y (Shape.Idx.first Facts₀.h_S_) :=
  broadcastInDim_apply _ Facts₀.bcast_S_S64 y (ix1 b) (Shape.Idx.first Facts₀.h_S_) (fun a => a.elim0)

/-- A per-row value given a trailing unit axis reads the row's value. -/
theorem bc_col (y : (⟨S64, .f32⟩ : BufTy).Contents (Elt Ideal)) (b : Fin 64) :
    broadcastInDim S64x1 ![0] Facts₀.bcast_S64_S64x1_0 y (ix2 b 0) = y (ix1 b) :=
  broadcastInDim_apply _ Facts₀.bcast_S64_S64x1_0 y (ix2 b 0) (ix1 b) (fun a => match a with
    | ⟨0, _⟩ => by show b.val = if (64 : Nat) = 1 then 0 else b.val; rw [if_neg (by decide)])

/-- A column broadcast along the positions reads the row's entry. -/
theorem bc_row (y : (⟨S64x1, .f32⟩ : BufTy).Contents (Elt Ideal)) (b : Fin 64) (s : Fin 4096) :
    broadcastInDim S64x4096 ![0, 1] Facts₀.bcast_S64x1_S64x4096_0_1 y (ix2 b s) = y (ix2 b 0) :=
  broadcastInDim_apply _ Facts₀.bcast_S64x1_S64x4096_0_1 y (ix2 b s) (ix2 b 0) (fun a => match a with
    | ⟨0, _⟩ => by show b.val = if (64 : Nat) = 1 then 0 else b.val; rw [if_neg (by decide)]
    | ⟨1, _⟩ => by show 0 = if (1 : Nat) = 1 then 0 else s.val; rw [if_pos rfl])

/-- An array given a trailing unit axis reads the array's entry. -/
theorem bc_unit (y : (⟨S64x4096, .f32⟩ : BufTy).Contents (Elt Ideal)) (b : Fin 64) (s : Fin 4096) :
    broadcastInDim S64x4096x1 ![0, 1] Facts₀.bcast_S64x4096_S64x4096x1_0_1 y (ix3 b s 0) = y (ix2 b s) :=
  broadcastInDim_apply _ Facts₀.bcast_S64x4096_S64x4096x1_0_1 y (ix3 b s 0) (ix2 b s) (fun a => match a with
    | ⟨0, _⟩ => by show b.val = if (64 : Nat) = 1 then 0 else b.val; rw [if_neg (by decide)]
    | ⟨1, _⟩ => by show s.val = if (4096 : Nat) = 1 then 0 else s.val; rw [if_neg (by decide)])

/-- The exponential of an array reads entry by entry. -/
theorem hexp_apply (x : (⟨S64x4096, .f32⟩ : BufTy).Contents (Elt Ideal)) (i : S64x4096.Idx) :
    Host.exp (F := Ideal) (s := S64x4096) (φ := .f32) x i = Ideal.exp (x i) := rfl

/-- The quotient of two arrays reads entry by entry. -/
theorem hdivf_apply (x y : (⟨S64x4096, .f32⟩ : BufTy).Contents (Elt Ideal)) (i : S64x4096.Idx) :
    Host.divf (F := Ideal) (s := S64x4096) (φ := .f32) x y i = Ideal.div (x i) (y i) := rfl

/-- The maximum stage: the maximum of `-∞` and the fold of the maximum over a row is the row's maximum. -/
theorem max_stage (S : (⟨S64x4096, .f32⟩ : BufTy).Contents (Elt Ideal)) (b : Fin 64) :
    (maximumf (broadcastInDim S64 ![] Facts₀.bcast_S_S64 (constant (F := Ideal) S_ .f32 0xFF800000#32))
      (Host.reduce FloatOps.maximumf S (constant (F := Ideal) S_ .f32 0xFF800000#32) Facts₀.reducesTo_S64x4096_S64_d1 Facts₀.h_S_)
      : (⟨S64, .f32⟩ : BufTy).Contents (Elt Ideal)) (ix1 b)
      = Cert.Spec.rowMax (fun s' => S (ix2 b s')) := by
  have hR : S64x4096.Reduces [1] S64 := by decide
  rw [maximumf_apply, bc_scalar, constant_apply, negInf_eq_bot, bot_sup_eq]
  refine (Host.reduce_eq_fold_single (FloatOps.maximumf (F := Ideal) (φ := .f32)) S (constant (F := Ideal) S_ .f32 0xFF800000#32)
    Facts₀.reducesTo_S64x4096_S64_d1 hR Facts₀.h_S_ (ix1 b)).trans ?_
  rw [constant_apply, negInf_eq_bot]
  have e : (S ∘ hR.lift (ix1 b)) = fun k : Fin 4096 => S (ix2 b k) := funext fun k =>
    congrArg S (funext fun a => Fin.ext (by match a with | ⟨0, _⟩ => rfl | ⟨1, _⟩ => rfl))
  rw [e]
  rfl

/-- The exponential stage: the exponential of an entry taken against its row's value `m`. -/
theorem exp_stage (S : (⟨S64x4096, .f32⟩ : BufTy).Contents (Elt Ideal)) (m : (⟨S64, .f32⟩ : BufTy).Contents (Elt Ideal)) (b : Fin 64) (s : Fin 4096) :
    (Host.exp (F := Ideal) (s := S64x4096) (φ := .f32) (subf S (broadcastInDim S64x4096 ![0, 1] Facts₀.bcast_S64x1_S64x4096_0_1
      (broadcastInDim S64x1 ![0] Facts₀.bcast_S64_S64x1_0 m)))) (ix2 b s)
      = Ideal.exp (S (ix2 b s) - m (ix1 b)) := by
  rw [hexp_apply, subf_apply, bc_row, bc_col]

/-- The sum stage: the sum from zero over a row's positions. -/
theorem sum_stage (y : (⟨S64x4096, .f32⟩ : BufTy).Contents (Elt Ideal)) (b : Fin 64) :
    (Host.reduceAdd y (constant (F := Ideal) S_ .f32 0x00000000#32) Facts₀.reducesTo_S64x4096_S64_d1 Facts₀.h_S_
      : (⟨S64, .f32⟩ : BufTy).Contents (Elt Ideal)) (ix1 b) = ∑ k : Fin 4096, y (ix2 b k) := by
  have hR : S64x4096.Reduces [1] S64 := by decide
  simp only [Host.reduceAdd, Ideal.hostReduceAdd_def]
  rw [Ideal.hostReduceAdd_single Facts₀.reducesTo_S64x4096_S64_d1 hR, constant_apply, Ideal.ofBits_zero_f32, zero_add]
  refine Finset.sum_congr rfl fun k _ => ?_
  exact congrArg y (funext fun a => Fin.ext (by match a with | ⟨0, _⟩ => rfl | ⟨1, _⟩ => rfl))

/-- The quotient stage: an entry divided by its row's value `l`, under a trailing unit axis. -/
theorem div_stage (e : (⟨S64x4096, .f32⟩ : BufTy).Contents (Elt Ideal)) (l : (⟨S64, .f32⟩ : BufTy).Contents (Elt Ideal)) (b : Fin 64) (s : Fin 4096) :
    (broadcastInDim S64x4096x1 ![0, 1] Facts₀.bcast_S64x4096_S64x4096x1_0_1
      (Host.divf (F := Ideal) (s := S64x4096) (φ := .f32) e (broadcastInDim S64x4096 ![0, 1] Facts₀.bcast_S64x1_S64x4096_0_1
        (broadcastInDim S64x1 ![0] Facts₀.bcast_S64_S64x1_0 l)))
      : (⟨S64x4096x1, .f32⟩ : BufTy).Contents (Elt Ideal)) (ix3 b s 0)
      = Ideal.div (e (ix2 b s)) (l (ix1 b)) := by
  rw [bc_unit, hdivf_apply, bc_row, bc_col]

/-- At batch row `b`, position `s` it is the row's softmax weight. -/
theorem tail_apply (S : (⟨S64x4096, .f32⟩ : BufTy).Contents (Elt Ideal)) (b : Fin 64) (s : Fin 4096) :
    tail (F := Ideal) S (ix3 b s 0) = Cert.Spec.attn (fun s' => S (ix2 b s')) s := by
  unfold tail
  dsimp only
  rw [div_stage, sum_stage, exp_stage, max_stage]
  unfold Cert.Spec.attn Cert.Spec.rowSum
  refine congrArg (Ideal.div _) (Finset.sum_congr rfl fun k _ => ?_)
  rw [exp_stage, max_stage]

end Cert.KernelIdeal.Tail

end
-- ==== Proof.KernelRun.lean ====
/-
  The idealized kernel's run, read: every execution ends with the context array holding every batch row's accumulated
  context, the attention array holding the softmax of the scores array the region left, and the arguments unchanged.
-/
import proofs.«416236_j3435973837471_3_alg».proof.Proof.FinalArrays
import proofs.«416236_j3435973837471_3_alg».proof.Proof.Tail
import Idealize.ShloMosaic.Lib.StableHlo.Run

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Final

variable (m : (ℓ : Loc nD τ sig) → Buf (Elt Ideal) ℓ) (ρ : Dev nD → PrngReg)

/-- The host operations after the region read the scores array where the region left it. -/
theorem scores_found (c : Dev nD) :
    Pipeline.withArrays (cfgs 0).spec c (V0 m c) (fun w => (dats m 0 c).arrAt w (cfgs 0).N) (Proc.devRef .tc main_v1_0)
      = scoresArr m c :=
  (Pipeline.withArrays_arr spec0 launch0.win.arr_inj c _ _ 5).trans (final5 m c)

/-- The attention array the host operations after the region leave: the softmax of the scores array. -/
theorem tail_eq (c : Dev nD) :
    Pipeline.afterTail₀ cfgs (dats m) 0 (V0 m) [hostOps1] c main_v13 = Tail.tail (F := Ideal) (scoresArr m c) := by
  unfold Pipeline.afterTail₀
  show StableHlo.after hostOps1 _ (Proc.devRef .tc main_v13) = _
  after_results
  rw [scores_found m c]
  rfl

/-- The run: the context array, the attention array, and the arguments. -/
theorem run : θ_run defs (onTc (τ := τ) (main (F := Ideal))) ⟨m, fun _ => 0, ρ⟩ fun r => ∀ c : Dev nD,
      r.2.mem ((c.tc : Thread nD τ).loc main_v1_1) = ctxArr m c
      ∧ r.2.mem ((c.tc : Thread nD τ).loc main_v13) = Tail.tail (F := Ideal) (scoresArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans (final6 m c),
      ((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c)))⟩) (run_main m ρ)

end Cert.KernelIdeal.KRun

end
-- ==== Proof.Bridge.lean ====
/-
  The reference's results are the kernel's.

  Attention weights: both sides are the softmax of the same scores, with no condition on the inputs. Context: the
  reference sums softmax weight times entry over the positions; the kernel accumulates tile by tile with a running
  maximum. For finite inputs every score and every entry is a real number, and then the two agree.
-/
import proofs.«416236_j3435973837471_3_alg».proof.Proof.Online
import proofs.«416236_j3435973837471_3_alg».proof.Proof.ScoreReal
import proofs.«416236_j3435973837471_3_alg».proof.Proof.Finite
import proofs.«416236_j3435973837471_3_alg».proof.Proof.RefValue
import proofs.«416236_j3435973837471_3_alg».proof.Proof.KernelRun

noncomputable section

namespace Cert.Bridge

open Idealize.ShloMosaic Idealize.ShloMosaic.TcCoe Idealize.SL.Sem Idealize.ShloMosaic.ValueIdx
open Cert.KernelIdeal Cert.KernelIdeal.Gen Cert.KernelIdeal.Blocks Cert.KernelIdeal.Final

variable (m : (ℓ : Loc nD τ sig) → Buf (Elt Ideal) ℓ)

/-- The reference's attention weights are the softmax of the kernel's scores array. -/
theorem ref_attn_eq (c : Dev nD) :
    Cert.ReferenceIdeal.Read.val_main_v19 (F := Ideal) (xarr m c) (w1arr m c) (b1arr m c) (w2arr m c) (b2arr m c)
      = Cert.KernelIdeal.Tail.tail (F := Ideal) (scoresArr m c) := by
  funext i
  obtain ⟨b, s, z, rfl⟩ : ∃ (b : Fin 64) (s : Fin 4096) (z : Fin 1), i = ix3 b s z := ⟨i 0, i 1, i 2, eq_ix3 i⟩
  obtain rfl : z = 0 := Subsingleton.elim _ _
  rw [Cert.ReferenceIdeal.RefValue.v19_apply]
  exact (Cert.KernelIdeal.Tail.tail_apply (scoresArr m c) b s).symm

/-- For finite inputs the reference's context is the kernel's accumulated context. -/
theorem ref_ctx_eq [Cert.Pre_finite_inputs.Facts] (c : Dev nD)
    (hpre : Cert.Pre_finite_inputs.fn (F := Ideal) (xarr m c) (w1arr m c) (b1arr m c) (w2arr m c) (b2arr m c) = fun _ => 1#1) :
    Cert.ReferenceIdeal.Read.val_main_v22 (F := Ideal) (xarr m c) (w1arr m c) (b1arr m c) (w2arr m c) (b2arr m c)
      = ctxArr m c := by
  obtain ⟨hx, hw1, hb1, hw2, hb2⟩ := Cert.Finite.real_of_fn _ _ _ _ _ hpre
  funext i
  obtain ⟨b, h, rfl⟩ : ∃ (b : Fin 64) (h : Fin 512), i = ix2 b h := ⟨i 0, i 1, eq_ix2 i⟩
  rw [Cert.ReferenceIdeal.RefValue.v22_apply]
  show Cert.Spec.ctx (SC m c b) (XC m c b h) = Cert.Spec.ctxOnline (SC m c b) (XC m c b h)
  exact (Cert.Spec.ctxOnline_eq_ctx _ _ (fun s => Cert.Spec.score_real _ _ _ _ _ hx hw1 hb1 hw2 hb2 b s) (fun s => hx _)).symm

end Cert.Bridge

end
-- ==== Proof.lean ====
/-
  Attention pooling: a two-layer scorer (linear, tanh, linear of width one), a softmax over the 4096 positions of each
  batch row, and the softmax-weighted sum of the row's entries.

  The kernel streams each batch row block through 8 tiles of 512 positions. Per tile it computes the scores, keeps a
  running maximum, and rescales a running sum of exponentials and a running weighted sum by `exp (m - m')` whenever the
  maximum grows from `m` to `m'`; after the last tile the context is the weighted sum divided by the sum. The attention
  weights are the softmax of the scores array on the host. The reference computes the scores, their softmax, and the
  weighted sum directly.

  On the extended reals the two score computations are the same sums. The attention weights are therefore equal with no
  condition on the inputs. For finite inputs every score is a real number, and the rescaling identity
  `exp (m - m') * exp (s - m) = exp (s - m')` makes the accumulated context equal to the softmax-weighted sum.
  The ideal pass rewrote nothing, so the kernel's idealization is its own text.
-/
import proofs.«416236_j3435973837471_3_alg».proof.Defs
import proofs.«416236_j3435973837471_3_alg».proof.Proof.Gen.Kernel
import proofs.«416236_j3435973837471_3_alg».proof.Proof.Gen.Kernel.Skeleton
import proofs.«416236_j3435973837471_3_alg».proof.Proof.Gen.Kernel.Launch
import proofs.«416236_j3435973837471_3_alg».proof.Proof.Gen.Kernel.Points
import proofs.«416236_j3435973837471_3_alg».proof.Proof.Gen.Kernel.Frame
import proofs.«416236_j3435973837471_3_alg».proof.Proof.Gen.KernelIdeal
import proofs.«416236_j3435973837471_3_alg».proof.Proof.Gen.KernelIdeal.Skeleton
import proofs.«416236_j3435973837471_3_alg».proof.Proof.Gen.KernelIdeal.Launch
import proofs.«416236_j3435973837471_3_alg».proof.Proof.Gen.KernelIdeal.Points
import proofs.«416236_j3435973837471_3_alg».proof.Proof.Gen.KernelIdeal.Frame
import proofs.«416236_j3435973837471_3_alg».proof.Proof.Gen.ReferenceIdeal
import proofs.«416236_j3435973837471_3_alg».proof.Proof.Gen.Pre_finite_inputs
import proofs.«416236_j3435973837471_3_alg».proof.Proof.Gen.ReferenceIdeal.Run
import proofs.«416236_j3435973837471_3_alg».proof.Proof.Gen.ReferenceIdeal.Read
import proofs.«416236_j3435973837471_3_alg».proof.Proof.Bridge
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the kernel's accumulated context and the softmax of the kernel's scores. -/
theorem algebraic : Cert.algebraic_KernelIdeal_ReferenceIdeal := by
  intro m ρ m' ρ' hpre hagree
  refine ⟨fun c => Cert.KernelIdeal.Final.ctxArr m c,
    fun c => Cert.KernelIdeal.Tail.tail (F := Ideal) (Cert.KernelIdeal.Final.scoresArr m c),
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2]
    exact Cert.Bridge.ref_ctx_eq m c (hpre c)
  · rw [(hagree c).1, (hagree c).2.1, (hagree c).2.2.1, (hagree c).2.2.2.1, (hagree c).2.2.2.2]
    exact Cert.Bridge.ref_attn_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
